-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144 : Shape := ⟨1, ![262144]⟩
abbrev S262144x128 : Shape := ⟨2, ![262144, 128]⟩
abbrev S100000x128 : Shape := ⟨2, ![100000, 128]⟩
abbrev S100000 : Shape := ⟨1, ![100000]⟩
abbrev S128 : Shape := ⟨1, ![128]⟩
abbrev S_ : Shape := ⟨0, ![]⟩

class Facts : Prop where
  bcast_S_S262144 : S_.BroadcastsInDim S262144 (![] : Fin 0 → Fin S262144.rank)
  reducesTo_S262144_S_d0 : S262144.ReducesTo [0] S_
  h_S_ : 0 < S_.numel
  bcast_S_S262144x128 : S_.BroadcastsInDim S262144x128 (![] : Fin 0 → Fin S262144x128.rank)
  reducesTo_S262144x128_S_d0_1 : S262144x128.ReducesTo [0, 1] S_
  bcast_S_S100000x128 : S_.BroadcastsInDim S100000x128 (![] : Fin 0 → Fin S100000x128.rank)
  reducesTo_S100000x128_S_d0_1 : S100000x128.ReducesTo [0, 1] S_
  bcast_S_S100000 : S_.BroadcastsInDim S100000 (![] : Fin 0 → Fin S100000.rank)
  reducesTo_S100000_S_d0 : S100000.ReducesTo [0] S_
  bcast_S_S128 : S_.BroadcastsInDim S128 (![] : Fin 0 → Fin S128.rank)
  reducesTo_S128_S_d0 : S128.ReducesTo [0] S_

variable [Facts]

def fn_part2 {F : FTy → Type} [FloatOps F] (main_arg10 : FVec F S128 .f32) (main_arg11 : FVec F S128 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg7 : FVec F S262144 .f32) (main_arg8 : FVec F S100000x128 .f32) (main_arg9 : FVec F S100000 .f32) (main_arg10 : FVec F S128 .f32) (main_arg11 : FVec F S128 .f32) (main_v13 : IVec S_ 1) (main_v16 : IVec S262144 1) : IVec S_ 1 :=
  let main_c_5 : IVec S_ 1 := constantI S_ 1 1#1
  let main_v17 : IVec S_ 1 := (fun x v => Host.reduce IntOp.andi x v reducesTo_S262144_S_d0 h_S_) main_v16 main_c_5
  let main_v18 : IVec S_ 1 := andi main_v13 main_v17
  let main_v19 : FVec F S262144 .f32 := Host.absf main_arg7
  let main_cst_6 : FVec F S_ .f32 := constant S_ .f32 0x7F800000#32
  let main_v20 : FVec F S262144 .f32 := broadcastInDim S262144 ![] bcast_S_S262144 main_cst_6
  let main_v21 : IVec S262144 1 := cmpf .olt main_v19 main_v20
  let main_c_7 : IVec S_ 1 := constantI S_ 1 1#1
  let main_v22 : IVec S_ 1 := (fun x v => Host.reduce IntOp.andi x v reducesTo_S262144_S_d0 h_S_) main_v21 main_c_7
  let main_v23 : IVec S_ 1 := andi main_v18 main_v22
  let main_v24 : FVec F S100000x128 .f32 := Host.absf main_arg8
  let main_cst_8 : FVec F S_ .f32 := constant S_ .f32 0x7F800000#32
  let main_v25 : FVec F S100000x128 .f32 := broadcastInDim S100000x128 ![] bcast_S_S100000x128 main_cst_8
  let main_v26 : IVec S100000x128 1 := cmpf .olt main_v24 main_v25
  let main_c_9 : IVec S_ 1 := constantI S_ 1 1#1
  let main_v27 : IVec S_ 1 := (fun x v => Host.reduce IntOp.andi x v reducesTo_S100000x128_S_d0_1 h_S_) main_v26 main_c_9
  let main_v28 : IVec S_ 1 := andi main_v23 main_v27
  let main_v29 : FVec F S100000 .f32 := Host.absf main_arg9
  let main_cst_10 : FVec F S_ .f32 := constant S_ .f32 0x7F800000#32
  let main_v30 : FVec F S100000 .f32 := broadcastInDim S100000 ![] bcast_S_S100000 main_cst_10
  let main_v31 : IVec S100000 1 := cmpf .olt main_v29 main_v30
  let main_c_11 : IVec S_ 1 := constantI S_ 1 1#1
  let main_v32 : IVec S_ 1 := (fun x v => Host.reduce IntOp.andi x v reducesTo_S100000_S_d0 h_S_) main_v31 main_c_11
  let main_v33 : IVec S_ 1 := andi main_v28 main_v32
  fn_part2 (F := F) main_arg10 main_arg11 main_v33

def fn {F : FTy → Type} [FloatOps F] (main_arg0 : IVec S262144 32) (main_arg1 : IVec S262144 32) (main_arg2 : FVec F S262144 .f32) (main_arg3 : IVec S262144 32) (main_arg4 : FVec F S262144 .f32) (main_arg5 : FVec F S262144x128 .f32) (main_arg6 : FVec F S262144 .f32) (main_arg7 : FVec F S262144 .f32) (main_arg8 : FVec F S100000x128 .f32) (main_arg9 : FVec F S100000 .f32) (main_arg10 : FVec F S128 .f32) (main_arg11 : FVec F S128 .f32) : IVec S_ 1 :=
  let main_v0 : FVec F S262144 .f32 := Host.absf main_arg2
  let main_cst : FVec F S_ .f32 := constant S_ .f32 0x7F800000#32
  let main_v1 : FVec F S262144 .f32 := broadcastInDim S262144 ![] bcast_S_S262144 main_cst
  let main_v2 : IVec S262144 1 := cmpf .olt main_v0 main_v1
  let main_c : IVec S_ 1 := constantI S_ 1 1#1
  let main_v3 : IVec S_ 1 := (fun x v => Host.reduce IntOp.andi x v reducesTo_S262144_S_d0 h_S_) main_v2 main_c
  let main_v4 : FVec F S262144 .f32 := Host.absf main_arg4
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S262144x128 .f32 := Host.absf main_arg5
  let main_cst_2 : FVec F S_ .f32 := constant S_ .f32 0x7F800000#32
  let main_v10 : FVec F S262144x128 .f32 := broadcastInDim S262144x128 ![] bcast_S_S262144x128 main_cst_2
  let main_v11 : IVec S262144x128 1 := cmpf .olt main_v9 main_v10
  let main_c_3 : IVec S_ 1 := constantI S_ 1 1#1
  let main_v12 : IVec S_ 1 := (fun x v => Host.reduce IntOp.andi x v reducesTo_S262144x128_S_d0_1 h_S_) main_v11 main_c_3
  let main_v13 : IVec S_ 1 := andi main_v8 main_v12
  let main_v14 : FVec F S262144 .f32 := Host.absf main_arg6
  let main_cst_4 : FVec F S_ .f32 := constant S_ .f32 0x7F800000#32
  let main_v15 : FVec F S262144 .f32 := broadcastInDim S262144 ![] bcast_S_S262144 main_cst_4
  let main_v16 : IVec S262144 1 := cmpf .olt main_v14 main_v15
  fn_part1 (F := F) main_arg7 main_arg8 main_arg9 main_arg10 main_arg11 main_v13 main_v16
-- ==== Kernel.lean ====
abbrev S262144 : Shape := ⟨1, ![262144]⟩
abbrev S262144x128 : Shape := ⟨2, ![262144, 128]⟩
abbrev S100000x128 : Shape := ⟨2, ![100000, 128]⟩
abbrev S100000 : Shape := ⟨1, ![100000]⟩
abbrev S128 : Shape := ⟨1, ![128]⟩
abbrev S_ : Shape := ⟨0, ![]⟩
abbrev S262144x1 : Shape := ⟨2, ![262144, 1]⟩
abbrev S1x128 : Shape := ⟨2, ![1, 128]⟩
abbrev S262144x640 : Shape := ⟨2, ![262144, 640]⟩
abbrev S2048x1 : Shape := ⟨2, ![2048, 1]⟩
abbrev S2048x128 : Shape := ⟨2, ![2048, 128]⟩
abbrev S2048x640 : Shape := ⟨2, ![2048, 640]⟩
abbrev S100000x640 : Shape := ⟨2, ![100000, 640]⟩
abbrev S100000x1 : Shape := ⟨2, ![100000, 1]⟩
abbrev S1x100000x640 : Shape := ⟨3, ![1, 100000, 640]⟩
abbrev S2x100000x640 : Shape := ⟨3, ![2, 100000, 640]⟩

abbrev nBuf : Space → Nat
  | .hbm => 95
  | .vmem => 26
  | .smem => 0
  | _ => 0

abbrev bufTy : (tb : Table) → Fin (tcTables nBuf tb) → BufTy
  | .hbm, ⟨0, _⟩ => ⟨S262144, .i32⟩
  | .hbm, ⟨1, _⟩ => ⟨S262144, .i32⟩
  | .hbm, ⟨2, _⟩ => ⟨S262144, .f32⟩
  | .hbm, ⟨3, _⟩ => ⟨S262144, .i32⟩
  | .hbm, ⟨4, _⟩ => ⟨S262144, .f32⟩
  | .hbm, ⟨5, _⟩ => ⟨S262144x128, .f32⟩
  | .hbm, ⟨6, _⟩ => ⟨S262144, .f32⟩
  | .hbm, ⟨7, _⟩ => ⟨S262144, .f32⟩
  | .hbm, ⟨8, _⟩ => ⟨S100000x128, .f32⟩
  | .hbm, ⟨9, _⟩ => ⟨S100000, .f32⟩
  | .hbm, ⟨10, _⟩ => ⟨S128, .f32⟩
  | .hbm, ⟨11, _⟩ => ⟨S128, .f32⟩
  | .hbm, ⟨12, _⟩ => ⟨S_, .i32⟩
  | .hbm, ⟨13, _⟩ => ⟨S262144, .i32⟩
  | .hbm, ⟨14, _⟩ => ⟨S262144, .i1⟩
  | .hbm, ⟨15, _⟩ => ⟨S_, .i32⟩
  | .hbm, ⟨16, _⟩ => ⟨S262144, .i32⟩
  | .hbm, ⟨17, _⟩ => ⟨S262144, .i32⟩
  | .hbm, ⟨18, _⟩ => ⟨S262144, .i32⟩
  | .hbm, ⟨19, _⟩ => ⟨S262144x1, .i32⟩
  | .hbm, ⟨20, _⟩ => ⟨S262144x128, .f32⟩
  | .hbm, ⟨21, _⟩ => ⟨S_, .i32⟩
  | .hbm, ⟨22, _⟩ => ⟨S262144, .i32⟩
  | .hbm, ⟨23, _⟩ => ⟨S262144, .i1⟩
  | .hbm, ⟨24, _⟩ => ⟨S_, .i32⟩
  | .hbm, ⟨25, _⟩ => ⟨S262144, .i32⟩
  | .hbm, ⟨26, _⟩ => ⟨S262144, .i32⟩
  | .hbm, ⟨27, _⟩ => ⟨S262144, .i32⟩
  | .hbm, ⟨28, _⟩ => ⟨S262144x1, .i32⟩
  | .hbm, ⟨29, _⟩ => ⟨S262144x128, .f32⟩
  | .hbm, ⟨30, _⟩ => ⟨S_, .i32⟩
  | .hbm, ⟨31, _⟩ => ⟨S262144, .i32⟩
  | .hbm, ⟨32, _⟩ => ⟨S262144, .i1⟩
  | .hbm, ⟨33, _⟩ => ⟨S_, .i32⟩
  | .hbm, ⟨34, _⟩ => ⟨S262144, .i32⟩
  | .hbm, ⟨35, _⟩ => ⟨S262144, .i32⟩
  | .hbm, ⟨36, _⟩ => ⟨S262144, .i32⟩
  | .hbm, ⟨37, _⟩ => ⟨S262144x1, .i32⟩
  | .hbm, ⟨38, _⟩ => ⟨S262144, .f32⟩
  | .hbm, ⟨39, _⟩ => ⟨S_, .i32⟩
  | .hbm, ⟨40, _⟩ => ⟨S262144, .i32⟩
  | .hbm, ⟨41, _⟩ => ⟨S262144, .i1⟩
  | .hbm, ⟨42, _⟩ => ⟨S_, .i32⟩
  | .hbm, ⟨43, _⟩ => ⟨S262144, .i32⟩
  | .hbm, ⟨44, _⟩ => ⟨S262144, .i32⟩
  | .hbm, ⟨45, _⟩ => ⟨S262144, .i32⟩
  | .hbm, ⟨46, _⟩ => ⟨S262144x1, .i32⟩
  | .hbm, ⟨47, _⟩ => ⟨S262144, .f32⟩
  | .hbm, ⟨48, _⟩ => ⟨S262144, .f32⟩
  | .hbm, ⟨49, _⟩ => ⟨S262144x1, .f32⟩
  | .hbm, ⟨50, _⟩ => ⟨S262144x1, .f32⟩
  | .hbm, ⟨51, _⟩ => ⟨S262144x1, .f32⟩
  | .hbm, ⟨52, _⟩ => ⟨S262144x1, .f32⟩
  | .hbm, ⟨53, _⟩ => ⟨S262144x1, .f32⟩
  | .hbm, ⟨54, _⟩ => ⟨S262144x1, .f32⟩
  | .hbm, ⟨55, _⟩ => ⟨S262144x1, .f32⟩
  | .hbm, ⟨56, _⟩ => ⟨S1x128, .f32⟩
  | .hbm, ⟨57, _⟩ => ⟨S1x128, .f32⟩
  | .hbm, ⟨58, _⟩ => ⟨S262144x640, .f32⟩
  | .hbm, ⟨59, _⟩ => ⟨S262144x640, .f32⟩
  | .hbm, ⟨60, _⟩ => ⟨S_, .f32⟩
  | .hbm, ⟨61, _⟩ => ⟨S100000x640, .f32⟩
  | .hbm, ⟨62, _⟩ => ⟨S262144x1, .i32⟩
  | .hbm, ⟨63, _⟩ => ⟨S100000x640, .f32⟩
  | .hbm, ⟨64, _⟩ => ⟨S_, .f32⟩
  | .hbm, ⟨65, _⟩ => ⟨S262144, .f32⟩
  | .hbm, ⟨66, _⟩ => ⟨S_, .f32⟩
  | .hbm, ⟨67, _⟩ => ⟨S100000, .f32⟩
  | .hbm, ⟨68, _⟩ => ⟨S262144x1, .i32⟩
  | .hbm, ⟨69, _⟩ => ⟨S100000, .f32⟩
  | .hbm, ⟨70, _⟩ => ⟨S_, .f32⟩
  | .hbm, ⟨71, _⟩ => ⟨S100000, .f32⟩
  | .hbm, ⟨72, _⟩ => ⟨S100000, .f32⟩
  | .hbm, ⟨73, _⟩ => ⟨S100000x1, .f32⟩
  | .hbm, ⟨74, _⟩ => ⟨S100000x640, .f32⟩
  | .hbm, ⟨75, _⟩ => ⟨S100000x640, .f32⟩
  | .hbm, ⟨76, _⟩ => ⟨S_, .f32⟩
  | .hbm, ⟨77, _⟩ => ⟨S100000x640, .f32⟩
  | .hbm, ⟨78, _⟩ => ⟨S262144x1, .i32⟩
  | .hbm, ⟨79, _⟩ => ⟨S100000x640, .f32⟩
  | .hbm, ⟨80, _⟩ => ⟨S_, .f32⟩
  | .hbm, ⟨81, _⟩ => ⟨S262144, .f32⟩
  | .hbm, ⟨82, _⟩ => ⟨S_, .f32⟩
  | .hbm, ⟨83, _⟩ => ⟨S100000, .f32⟩
  | .hbm, ⟨84, _⟩ => ⟨S262144x1, .i32⟩
  | .hbm, ⟨85, _⟩ => ⟨S100000, .f32⟩
  | .hbm, ⟨86, _⟩ => ⟨S_, .f32⟩
  | .hbm, ⟨87, _⟩ => ⟨S100000, .f32⟩
  | .hbm, ⟨88, _⟩ => ⟨S100000, .f32⟩
  | .hbm, ⟨89, _⟩ => ⟨S100000x1, .f32⟩
  | .hbm, ⟨90, _⟩ => ⟨S100000x640, .f32⟩
  | .hbm, ⟨91, _⟩ => ⟨S100000x640, .f32⟩
  | .hbm, ⟨92, _⟩ => ⟨S1x100000x640, .f32⟩
  | .hbm, ⟨93, _⟩ => ⟨S1x100000x640, .f32⟩
  | .hbm, ⟨94, _⟩ => ⟨S2x100000x640, .f32⟩
  | .local _ .vmem, ⟨0, _⟩ => ⟨S2048x1, .f32⟩
  | .local _ .vmem, ⟨1, _⟩ => ⟨S2048x1, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x1, .f32⟩
  | .local _ .vmem, ⟨7, _⟩ => ⟨S2048x1, .f32⟩
  | .local _ .vmem, ⟨8, _⟩ => ⟨S2048x1, .f32⟩
  | .local _ .vmem, ⟨9, _⟩ => ⟨S2048x1, .f32⟩
  | .local _ .vmem, ⟨10, _⟩ => ⟨S2048x1, .f32⟩
  | .local _ .vmem, ⟨11, _⟩ => ⟨S2048x1, .f32⟩
  | .local _ .vmem, ⟨12, _⟩ => ⟨S2048x1, .f32⟩
  | .local _ .vmem, ⟨13, _⟩ => ⟨S2048x1, .f32⟩
  | .local _ .vmem, ⟨14, _⟩ => ⟨S2048x128, .f32⟩
  | .local _ .vmem, ⟨15, _⟩ => ⟨S2048x128, .f32⟩
  | .local _ .vmem, ⟨16, _⟩ => ⟨S2048x1, .f32⟩
  | .local _ .vmem, ⟨17, _⟩ => ⟨S2048x1, .f32⟩
  | .local _ .vmem, ⟨18, _⟩ => ⟨S2048x1, .f32⟩
  | .local _ .vmem, ⟨19, _⟩ => ⟨S2048x1, .f32⟩
  | .local _ .vmem, ⟨20, _⟩ => ⟨S1x128, .f32⟩
  | .local _ .vmem, ⟨21, _⟩ => ⟨S1x128, .f32⟩
  | .local _ .vmem, ⟨22, _⟩ => ⟨S2048x640, .f32⟩
  | .local _ .vmem, ⟨23, _⟩ => ⟨S2048x640, .f32⟩
  | .local _ .vmem, ⟨24, _⟩ => ⟨S2048x640, .f32⟩
  | .local _ .vmem, ⟨25, _⟩ => ⟨S2048x640, .f32⟩
  | _, _ => ⟨S262144, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_c_6 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38_0 : Ref sig .tc := ⟨.hbm, 58, rfl⟩
abbrev main_v38_1 : Ref sig .tc := ⟨.hbm, 59, rfl⟩
abbrev main_cst : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_11 : Ref sig .tc := ⟨.hbm, 80, rfl⟩
abbrev main_v54 : Ref sig .tc := ⟨.hbm, 81, rfl⟩
abbrev main_cst_12 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_13 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2048x640 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2048x640 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  shapeCasts_S262144_S262144x1 : S262144.ShapeCasts S262144x1
  shapeCasts_S128_S1x128 : S128.ShapeCasts S1x128
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S2048x1_S2048x128 : S2048x1.Broadcasts S2048x128
  broadcasts_S1x128_S2048x128 : S1x128.Broadcasts S2048x128
  inb_S2048x640_S2048x128_0_0 : ∀ a, (![0, 0] : Fin 2 → Nat) a + S2048x128.size a ≤ S2048x640.size a
  inb_S2048x640_S2048x128_0_128 : ∀ a, (![0, 128] : Fin 2 → Nat) a + S2048x128.size a ≤ S2048x640.size a
  inb_S2048x640_S2048x128_0_256 : ∀ a, (![0, 256] : Fin 2 → Nat) a + S2048x128.size a ≤ S2048x640.size a
  inb_S2048x640_S2048x128_0_384 : ∀ a, (![0, 384] : Fin 2 → Nat) a + S2048x128.size a ≤ S2048x640.size a
  inb_S2048x640_S2048x128_0_512 : ∀ a, (![0, 512] : Fin 2 → Nat) a + S2048x128.size a ≤ S2048x640.size a
  bcast_S_S100000x640 : S_.BroadcastsInDim S100000x640 (![] : Fin 0 → Fin S100000x640.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x640_0_1 : S100000x1.BroadcastsInDim S100000x640 (![0, 1] : Fin 2 → Fin S100000x640.rank)
  bcast_S100000x640_S1x100000x640_1_2 : S100000x640.BroadcastsInDim S1x100000x640 (![1, 2] : Fin 2 → Fin S1x100000x640.rank)
  concatenates_S1x100000x640_S1x100000x640_S2x100000x640_d0 : Shape.Concatenates [S1x100000x640, S1x100000x640] S2x100000x640 0
  gather_S100000x128_S262144x1_S262144x128_1_0_n_n_0_1_1128_wf : GatherDims.WF S100000x128 S262144x1 S262144x128 [1] [0] [] [0] [] 1 ![1, 128]
  gather_S100000_S262144x1_S262144_n_0_n_n_0_1_1_wf : GatherDims.WF S100000 S262144x1 S262144 [] [0] [] [0] [] 1 ![1]
  scatter_S100000x640_S262144x1_S262144x640_1_0_0_1_wf : ScatterDims.WF S100000x640 S262144x1 S262144x640 [1] [0] [0] 1
  scatter_S100000_S262144x1_S262144_n_0_0_1_wf : ScatterDims.WF S100000 S262144x1 S262144 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S262144x1.size a
  hwx0_0 : ∀ i : grid0.Coords, EltTy.bits .f32 = 32 ∨ (Rect.block (s := S262144x1) S2048x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S262144x128.size a
  hwx0_1 : ∀ i : grid0.Coords, EltTy.bits .f32 = 32 ∨ (Rect.block (s := S262144x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S262144x128.size a
  hwx0_2 : ∀ i : grid0.Coords, EltTy.bits .f32 = 32 ∨ (Rect.block (s := S262144x128) S2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S262144x1.size a
  hwx0_3 : ∀ i : grid0.Coords, EltTy.bits .f32 = 32 ∨ (Rect.block (s := S262144x1) S2048x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1.size a ≤ S262144x1.size a
  hwx0_4 : ∀ i : grid0.Coords, EltTy.bits .f32 = 32 ∨ (Rect.block (s := S262144x1) S2048x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x1.size a ≤ S262144x1.size a
  hwx0_5 : ∀ i : grid0.Coords, EltTy.bits .f32 = 32 ∨ (Rect.block (s := S262144x1) S2048x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x1.size a ≤ S262144x1.size a
  hwx0_6 : ∀ i : grid0.Coords, EltTy.bits .f32 = 32 ∨ (Rect.block (s := S262144x1) S2048x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x128.size a ≤ S262144x128.size a
  hwx0_7 : ∀ i : grid0.Coords, EltTy.bits .f32 = 32 ∨ (Rect.block (s := S262144x128) S2048x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x1.size a ≤ S262144x1.size a
  hwx0_8 : ∀ i : grid0.Coords, EltTy.bits .f32 = 32 ∨ (Rect.block (s := S262144x1) S2048x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x1.size a ≤ S262144x1.size a
  hwx0_9 : ∀ i : grid0.Coords, EltTy.bits .f32 = 32 ∨ (Rect.block (s := S262144x1) S2048x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2048x640.size a ≤ S262144x640.size a
  hwx0_12 : ∀ i : grid0.Coords, EltTy.bits .f32 = 32 ∨ (Rect.block (s := S262144x640) S2048x640.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2048x640.size a ≤ S262144x640.size a
  hwx0_13 : ∀ i : grid0.Coords, EltTy.bits .f32 = 32 ∨ (Rect.block (s := S262144x640) S2048x640.size (cc0_transform_13 i) (hinb0_13 i)).WholeWords (EltTy.packing .f32)

variable [Facts₀]

def gather_S100000x128_S262144x1_S262144x128_1_0_n_n_0_1_1128 : GatherDims S100000x128 S262144x1 S262144x128 where
  offsetDims := [1]
  collapsedSliceDims := [0]
  operandBatchingDims := []
  startIndicesBatchingDims := []
  startIndexMap := [0]
  indexVectorDim := 1
  sliceSizes := ![1, 128]
  wf := gather_S100000x128_S262144x1_S262144x128_1_0_n_n_0_1_1128_wf
def gather_S100000_S262144x1_S262144_n_0_n_n_0_1_1 : GatherDims S100000 S262144x1 S262144 where
  offsetDims := []
  collapsedSliceDims := [0]
  operandBatchingDims := []
  startIndicesBatchingDims := []
  startIndexMap := [0]
  indexVectorDim := 1
  sliceSizes := ![1]
  wf := gather_S100000_S262144x1_S262144_n_0_n_n_0_1_1_wf
def scatter_S100000x640_S262144x1_S262144x640_1_0_0_1 : ScatterDims S100000x640 S262144x1 S262144x640 where
  updateWindowDims := [1]
  insertedWindowDims := [0]
  scatterDimsToOperandDims := [0]
  indexVectorDim := 1
  wf := scatter_S100000x640_S262144x1_S262144x640_1_0_0_1_wf
def scatter_S100000_S262144x1_S262144_n_0_0_1 : ScatterDims S100000 S262144x1 S262144 where
  updateWindowDims := []
  insertedWindowDims := [0]
  scatterDimsToOperandDims := [0]
  indexVectorDim := 1
  wf := scatter_S100000_S262144x1_S262144_n_0_0_1_wf

abbrev win0_0 : Pipeline.Window sig grid0 :=
  Pipeline.Window.ofSpec (Memref.whole main_v29) S2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v30) S2048x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v31) S2048x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v32) S2048x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v33) S2048x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S2048x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v34) S2048x1.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v35) S2048x1.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v36) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v37) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v38_0) S2048x640.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v38_1) S2048x640.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S262144 : Shape := ⟨1, ![262144]⟩
abbrev S262144x128 : Shape := ⟨2, ![262144, 128]⟩
abbrev S100000x128 : Shape := ⟨2, ![100000, 128]⟩
abbrev S100000 : Shape := ⟨1, ![100000]⟩
abbrev S128 : Shape := ⟨1, ![128]⟩
abbrev S262144x1 : Shape := ⟨2, ![262144, 1]⟩
abbrev S_ : Shape := ⟨0, ![]⟩
abbrev S1x128 : Shape := ⟨2, ![1, 128]⟩
abbrev S262144x640 : Shape := ⟨2, ![262144, 640]⟩
abbrev S100000x640 : Shape := ⟨2, ![100000, 640]⟩
abbrev S100000x1 : Shape := ⟨2, ![100000, 1]⟩
abbrev S1x100000x640 : Shape := ⟨3, ![1, 100000, 640]⟩
abbrev S2x100000x640 : Shape := ⟨3, ![2, 100000, 640]⟩

abbrev nBuf : Space → Nat
  | .hbm => 122
  | .vmem => 0
  | .smem => 0
  | _ => 0

abbrev bufTy : (tb : Table) → Fin (tcTables nBuf tb) → BufTy
  | .hbm, ⟨0, _⟩ => ⟨S262144, .i32⟩
  | .hbm, ⟨1, _⟩ => ⟨S262144, .i32⟩
  | .hbm, ⟨2, _⟩ => ⟨S262144, .f32⟩
  | .hbm, ⟨3, _⟩ => ⟨S262144, .i32⟩
  | .hbm, ⟨4, _⟩ => ⟨S262144, .f32⟩
  | .hbm, ⟨5, _⟩ => ⟨S262144x128, .f32⟩
  | .hbm, ⟨6, _⟩ => ⟨S262144, .f32⟩
  | .hbm, ⟨7, _⟩ => ⟨S262144, .f32⟩
  | .hbm, ⟨8, _⟩ => ⟨S100000x128, .f32⟩
  | .hbm, ⟨9, _⟩ => ⟨S100000, .f32⟩
  | .hbm, ⟨10, _⟩ => ⟨S128, .f32⟩
  | .hbm, ⟨11, _⟩ => ⟨S128, .f32⟩
  | .hbm, ⟨12, _⟩ => ⟨S262144, .f32⟩
  | .hbm, ⟨13, _⟩ => ⟨S262144x1, .f32⟩
  | .hbm, ⟨14, _⟩ => ⟨S262144x128, .f32⟩
  | .hbm, ⟨15, _⟩ => ⟨S_, .i32⟩
  | .hbm, ⟨16, _⟩ => ⟨S262144, .i32⟩
  | .hbm, ⟨17, _⟩ => ⟨S262144, .i1⟩
  | .hbm, ⟨18, _⟩ => ⟨S_, .i32⟩
  | .hbm, ⟨19, _⟩ => ⟨S262144, .i32⟩
  | .hbm, ⟨20, _⟩ => ⟨S262144, .i32⟩
  | .hbm, ⟨21, _⟩ => ⟨S262144, .i32⟩
  | .hbm, ⟨22, _⟩ => ⟨S262144x1, .i32⟩
  | .hbm, ⟨23, _⟩ => ⟨S262144x128, .f32⟩
  | .hbm, ⟨24, _⟩ => ⟨S262144x1, .f32⟩
  | .hbm, ⟨25, _⟩ => ⟨S262144x128, .f32⟩
  | .hbm, ⟨26, _⟩ => ⟨S262144x128, .f32⟩
  | .hbm, ⟨27, _⟩ => ⟨S_, .i32⟩
  | .hbm, ⟨28, _⟩ => ⟨S262144, .i32⟩
  | .hbm, ⟨29, _⟩ => ⟨S262144, .i1⟩
  | .hbm, ⟨30, _⟩ => ⟨S_, .i32⟩
  | .hbm, ⟨31, _⟩ => ⟨S262144, .i32⟩
  | .hbm, ⟨32, _⟩ => ⟨S262144, .i32⟩
  | .hbm, ⟨33, _⟩ => ⟨S262144, .i32⟩
  | .hbm, ⟨34, _⟩ => ⟨S262144x1, .i32⟩
  | .hbm, ⟨35, _⟩ => ⟨S262144x128, .f32⟩
  | .hbm, ⟨36, _⟩ => ⟨S262144x1, .f32⟩
  | .hbm, ⟨37, _⟩ => ⟨S262144x128, .f32⟩
  | .hbm, ⟨38, _⟩ => ⟨S262144x128, .f32⟩
  | .hbm, ⟨39, _⟩ => ⟨S_, .i32⟩
  | .hbm, ⟨40, _⟩ => ⟨S262144, .i32⟩
  | .hbm, ⟨41, _⟩ => ⟨S262144, .i1⟩
  | .hbm, ⟨42, _⟩ => ⟨S_, .i32⟩
  | .hbm, ⟨43, _⟩ => ⟨S262144, .i32⟩
  | .hbm, ⟨44, _⟩ => ⟨S262144, .i32⟩
  | .hbm, ⟨45, _⟩ => ⟨S262144, .i32⟩
  | .hbm, ⟨46, _⟩ => ⟨S262144x1, .i32⟩
  | .hbm, ⟨47, _⟩ => ⟨S262144, .f32⟩
  | .hbm, ⟨48, _⟩ => ⟨S_, .i32⟩
  | .hbm, ⟨49, _⟩ => ⟨S262144, .i32⟩
  | .hbm, ⟨50, _⟩ => ⟨S262144, .i1⟩
  | .hbm, ⟨51, _⟩ => ⟨S_, .i32⟩
  | .hbm, ⟨52, _⟩ => ⟨S262144, .i32⟩
  | .hbm, ⟨53, _⟩ => ⟨S262144, .i32⟩
  | .hbm, ⟨54, _⟩ => ⟨S262144, .i32⟩
  | .hbm, ⟨55, _⟩ => ⟨S262144x1, .i32⟩
  | .hbm, ⟨56, _⟩ => ⟨S262144, .f32⟩
  | .hbm, ⟨57, _⟩ => ⟨S262144, .f32⟩
  | .hbm, ⟨58, _⟩ => ⟨S262144, .f32⟩
  | .hbm, ⟨59, _⟩ => ⟨S262144x1, .f32⟩
  | .hbm, ⟨60, _⟩ => ⟨S1x128, .f32⟩
  | .hbm, ⟨61, _⟩ => ⟨S262144x128, .f32⟩
  | .hbm, ⟨62, _⟩ => ⟨S262144x128, .f32⟩
  | .hbm, ⟨63, _⟩ => ⟨S262144x128, .f32⟩
  | .hbm, ⟨64, _⟩ => ⟨S1x128, .f32⟩
  | .hbm, ⟨65, _⟩ => ⟨S262144x128, .f32⟩
  | .hbm, ⟨66, _⟩ => ⟨S262144x128, .f32⟩
  | .hbm, ⟨67, _⟩ => ⟨S262144x128, .f32⟩
  | .hbm, ⟨68, _⟩ => ⟨S262144, .f32⟩
  | .hbm, ⟨69, _⟩ => ⟨S262144, .f32⟩
  | .hbm, ⟨70, _⟩ => ⟨S262144x1, .f32⟩
  | .hbm, ⟨71, _⟩ => ⟨S1x128, .f32⟩
  | .hbm, ⟨72, _⟩ => ⟨S262144x128, .f32⟩
  | .hbm, ⟨73, _⟩ => ⟨S262144x128, .f32⟩
  | .hbm, ⟨74, _⟩ => ⟨S262144x128, .f32⟩
  | .hbm, ⟨75, _⟩ => ⟨S1x128, .f32⟩
  | .hbm, ⟨76, _⟩ => ⟨S262144x128, .f32⟩
  | .hbm, ⟨77, _⟩ => ⟨S262144x128, .f32⟩
  | .hbm, ⟨78, _⟩ => ⟨S262144x128, .f32⟩
  | .hbm, ⟨79, _⟩ => ⟨S262144x640, .f32⟩
  | .hbm, ⟨80, _⟩ => ⟨S262144x1, .f32⟩
  | .hbm, ⟨81, _⟩ => ⟨S262144x640, .f32⟩
  | .hbm, ⟨82, _⟩ => ⟨S262144x640, .f32⟩
  | .hbm, ⟨83, _⟩ => ⟨S262144x640, .f32⟩
  | .hbm, ⟨84, _⟩ => ⟨S262144x1, .f32⟩
  | .hbm, ⟨85, _⟩ => ⟨S262144x640, .f32⟩
  | .hbm, ⟨86, _⟩ => ⟨S262144x640, .f32⟩
  | .hbm, ⟨87, _⟩ => ⟨S_, .f32⟩
  | .hbm, ⟨88, _⟩ => ⟨S100000x640, .f32⟩
  | .hbm, ⟨89, _⟩ => ⟨S262144x1, .i32⟩
  | .hbm, ⟨90, _⟩ => ⟨S100000x640, .f32⟩
  | .hbm, ⟨91, _⟩ => ⟨S_, .f32⟩
  | .hbm, ⟨92, _⟩ => ⟨S262144, .f32⟩
  | .hbm, ⟨93, _⟩ => ⟨S_, .f32⟩
  | .hbm, ⟨94, _⟩ => ⟨S100000, .f32⟩
  | .hbm, ⟨95, _⟩ => ⟨S262144x1, .i32⟩
  | .hbm, ⟨96, _⟩ => ⟨S100000, .f32⟩
  | .hbm, ⟨97, _⟩ => ⟨S_, .f32⟩
  | .hbm, ⟨98, _⟩ => ⟨S100000, .f32⟩
  | .hbm, ⟨99, _⟩ => ⟨S100000, .f32⟩
  | .hbm, ⟨100, _⟩ => ⟨S100000x1, .f32⟩
  | .hbm, ⟨101, _⟩ => ⟨S100000x640, .f32⟩
  | .hbm, ⟨102, _⟩ => ⟨S100000x640, .f32⟩
  | .hbm, ⟨103, _⟩ => ⟨S_, .f32⟩
  | .hbm, ⟨104, _⟩ => ⟨S100000x640, .f32⟩
  | .hbm, ⟨105, _⟩ => ⟨S262144x1, .i32⟩
  | .hbm, ⟨106, _⟩ => ⟨S100000x640, .f32⟩
  | .hbm, ⟨107, _⟩ => ⟨S_, .f32⟩
  | .hbm, ⟨108, _⟩ => ⟨S262144, .f32⟩
  | .hbm, ⟨109, _⟩ => ⟨S_, .f32⟩
  | .hbm, ⟨110, _⟩ => ⟨S100000, .f32⟩
  | .hbm, ⟨111, _⟩ => ⟨S262144x1, .i32⟩
  | .hbm, ⟨112, _⟩ => ⟨S100000, .f32⟩
  | .hbm, ⟨113, _⟩ => ⟨S_, .f32⟩
  | .hbm, ⟨114, _⟩ => ⟨S100000, .f32⟩
  | .hbm, ⟨115, _⟩ => ⟨S100000, .f32⟩
  | .hbm, ⟨116, _⟩ => ⟨S100000x1, .f32⟩
  | .hbm, ⟨117, _⟩ => ⟨S100000x640, .f32⟩
  | .hbm, ⟨118, _⟩ => ⟨S100000x640, .f32⟩
  | .hbm, ⟨119, _⟩ => ⟨S1x100000x640, .f32⟩
  | .hbm, ⟨120, _⟩ => ⟨S1x100000x640, .f32⟩
  | .hbm, ⟨121, _⟩ => ⟨S2x100000x640, .f32⟩
  | _, _ => ⟨S262144, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_v4 : Ref sig .tc := ⟨.hbm, 17, rfl⟩
abbrev main_c_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c_1 : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_3 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_7 : Ref sig .tc := ⟨.hbm, 91, rfl⟩
abbrev main_v70 : Ref sig .tc := ⟨.hbm, 92, rfl⟩
abbrev main_cst_8 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_9 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_10 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_11 : Ref sig .tc := ⟨.hbm, 107, rfl⟩
abbrev main_v82 : Ref sig .tc := ⟨.hbm, 108, rfl⟩
abbrev main_cst_12 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_13 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩

abbrev nD : Nat := 1
abbrev τ : Topo := Topo.v7x

variable {F : FTy → Type} [FloatOps F]

class Facts₀ : Prop where
  bcast_S262144_S262144x1_0 : S262144.BroadcastsInDim S262144x1 (![0] : Fin 1 → Fin S262144x1.rank)
  bcast_S262144x1_S262144x128_0_1 : S262144x1.BroadcastsInDim S262144x128 (![0, 1] : Fin 2 → Fin S262144x128.rank)
  bcast_S_S262144 : S_.BroadcastsInDim S262144 (![] : Fin 0 → Fin S262144.rank)
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  concatenates_S262144x128_S262144x128_S262144x128_S262144x128_S262144x128_S262144x640_d1 : Shape.Concatenates [S262144x128, S262144x128, S262144x128, S262144x128, S262144x128] S262144x640 1
  bcast_S262144x1_S262144x640_0_1 : S262144x1.BroadcastsInDim S262144x640 (![0, 1] : Fin 2 → Fin S262144x640.rank)
  bcast_S_S100000x640 : S_.BroadcastsInDim S100000x640 (![] : Fin 0 → Fin S100000x640.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x640_0_1 : S100000x1.BroadcastsInDim S100000x640 (![0, 1] : Fin 2 → Fin S100000x640.rank)
  bcast_S100000x640_S1x100000x640_1_2 : S100000x640.BroadcastsInDim S1x100000x640 (![1, 2] : Fin 2 → Fin S1x100000x640.rank)
  concatenates_S1x100000x640_S1x100000x640_S2x100000x640_d0 : Shape.Concatenates [S1x100000x640, S1x100000x640] S2x100000x640 0
  gather_S100000x128_S262144x1_S262144x128_1_0_n_n_0_1_1128_wf : GatherDims.WF S100000x128 S262144x1 S262144x128 [1] [0] [] [0] [] 1 ![1, 128]
  gather_S100000_S262144x1_S262144_n_0_n_n_0_1_1_wf : GatherDims.WF S100000 S262144x1 S262144 [] [0] [] [0] [] 1 ![1]
  scatter_S100000x640_S262144x1_S262144x640_1_0_0_1_wf : ScatterDims.WF S100000x640 S262144x1 S262144x640 [1] [0] [0] 1
  scatter_S100000_S262144x1_S262144_n_0_0_1_wf : ScatterDims.WF S100000 S262144x1 S262144 [] [0] [0] 1

variable [Facts₀]

def gather_S100000x128_S262144x1_S262144x128_1_0_n_n_0_1_1128 : GatherDims S100000x128 S262144x1 S262144x128 where
  offsetDims := [1]
  collapsedSliceDims := [0]
  operandBatchingDims := []
  startIndicesBatchingDims := []
  startIndexMap := [0]
  indexVectorDim := 1
  sliceSizes := ![1, 128]
  wf := gather_S100000x128_S262144x1_S262144x128_1_0_n_n_0_1_1128_wf
def gather_S100000_S262144x1_S262144_n_0_n_n_0_1_1 : GatherDims S100000 S262144x1 S262144 where
  offsetDims := []
  collapsedSliceDims := [0]
  operandBatchingDims := []
  startIndicesBatchingDims := []
  startIndexMap := [0]
  indexVectorDim := 1
  sliceSizes := ![1]
  wf := gather_S100000_S262144x1_S262144_n_0_n_n_0_1_1_wf
def scatter_S100000x640_S262144x1_S262144x640_1_0_0_1 : ScatterDims S100000x640 S262144x1 S262144x640 where
  updateWindowDims := [1]
  insertedWindowDims := [0]
  scatterDimsToOperandDims := [0]
  indexVectorDim := 1
  wf := scatter_S100000x640_S262144x1_S262144x640_1_0_0_1_wf
def scatter_S100000_S262144x1_S262144_n_0_0_1 : ScatterDims S100000 S262144x1 S262144 where
  updateWindowDims := []
  insertedWindowDims := [0]
  scatterDimsToOperandDims := [0]
  indexVectorDim := 1
  wf := scatter_S100000_S262144x1_S262144_n_0_0_1_wf

class Facts : Prop extends Facts₀ where

variable [Facts]
-- ==== Proof.Spec.lean ====
/-
  The two message arrays of the temporal-graph layer, entry by entry.

  For every event (row) r the layer forms two rows of 640 numbers, each five 128-wide pieces laid side by side
  and then scaled, the whole row, by one mask of that row:
    source row       = [ type | src memory · src mask | dst memory · dst mask | time code of the source | event ] · event mask
    destination row  = [ type | dst memory · dst mask | src memory · src mask | time code of the dest.  | event ] · dst mask
  where the time code at lane j is cos ((time − last update · dst mask) · w j + b j).  (Both time codes scale the
  node's last update by the DESTINATION mask: the layer is defined so.)

  Whether a row is scaled piece by piece before the pieces are laid down, or after they are laid side by side, the
  entry in column 128·k + j is the same number: piece k at (r, j) times the row's mask.  That number is `msgAt`
  below; it is stated over an arbitrary type of rows, so that the same function describes a block of 2048 events
  and the array of all 262144.
-/
import Idealize.ShloMosaic.PureOps.Ideal
import Idealize.ShloMosaic.Lib.ValueIdx

noncomputable section

namespace Cert.Msg

open Idealize.ShloMosaic

/-- Entry `(r, q)` of a row made of five 128-wide pieces side by side and scaled by the row's mask:
    with `q = 128·k + j` it is piece `k` at `(r, j)` times `mask r`. -/
def msgAt {R : Type} (p : Fin 5 → R → Fin 128 → EReal) (mask : R → EReal) (r : R) (q : Fin 640) : EReal :=
  p ⟨q.val / 128, by have := q.isLt; omega⟩ r ⟨q.val % 128, Nat.mod_lt _ (by decide)⟩ * mask r

/-- Column `128·k + j` lies in piece `k`, at lane `j`. -/
theorem msgAt_piece {R : Type} (p : Fin 5 → R → Fin 128 → EReal) (mask : R → EReal) (r : R) (q : Fin 640)
    (k : Fin 5) (j : Fin 128) (hq : q.val = 128 * k.val + j.val) : msgAt p mask r q = p k r j * mask r := by
  have hj := j.isLt
  have e1 : (⟨q.val / 128, by have := q.isLt; omega⟩ : Fin 5) = k := Fin.ext (by show q.val / 128 = k.val; omega)
  have e2 : (⟨q.val % 128, Nat.mod_lt _ (by decide)⟩ : Fin 128) = j := Fin.ext (by show q.val % 128 = j.val; omega)
  unfold msgAt
  rw [e1, e2]

/-- Every column is `128·k + j` for one piece `k` and one lane `j`. -/
theorem exists_piece (q : Fin 640) : ∃ (k : Fin 5) (j : Fin 128), q.val = 128 * k.val + j.val :=
  ⟨⟨q.val / 128, by have := q.isLt; omega⟩, ⟨q.val % 128, Nat.mod_lt _ (by decide)⟩, by
    show q.val = 128 * (q.val / 128) + q.val % 128; omega⟩

/-- What the layer reads of each event: its type (as a real), the two masks of its endpoints, the last update
    times of its endpoints, its own mask and time, the memory rows of its endpoints and its embedding. -/
@[ext] structure Rows (R : Type) where
  et : R → EReal
  smask : R → EReal
  dmask : R → EReal
  slu : R → EReal
  dlu : R → EReal
  emask : R → EReal
  ets : R → EReal
  smem : R → Fin 128 → EReal
  dmem : R → Fin 128 → EReal
  emb : R → Fin 128 → EReal

/-- The time code: lane `j` of `cos ((time − last update · dst mask) · w + b)`. -/
def timeCode {R : Type} (ts lu dm : R → EReal) (w b : Fin 128 → EReal) (r : R) (j : Fin 128) : EReal :=
  Ideal.cos ((ts r - lu r * dm r) * w j + b j)

/-- The five pieces of a source row, before the event mask. -/
def srcPieces {R : Type} (d : Rows R) (w b : Fin 128 → EReal) : Fin 5 → R → Fin 128 → EReal :=
  ![fun r _ => d.et r,
    fun r j => d.smem r j * d.smask r,
    fun r j => d.dmem r j * d.dmask r,
    fun r j => timeCode d.ets d.slu d.dmask w b r j,
    fun r j => d.emb r j]

/-- The five pieces of a destination row, before the destination mask. -/
def dstPieces {R : Type} (d : Rows R) (w b : Fin 128 → EReal) : Fin 5 → R → Fin 128 → EReal :=
  ![fun r _ => d.et r,
    fun r j => d.dmem r j * d.dmask r,
    fun r j => d.smem r j * d.smask r,
    fun r j => timeCode d.ets d.dlu d.dmask w b r j,
    fun r j => d.emb r j]

/-- The source message array at `(r, q)`. -/
def srcMsg {R : Type} (d : Rows R) (w b : Fin 128 → EReal) (r : R) (q : Fin 640) : EReal :=
  msgAt (srcPieces d w b) d.emask r q

/-- The destination message array at `(r, q)`. -/
def dstMsg {R : Type} (d : Rows R) (w b : Fin 128 → EReal) (r : R) (q : Fin 640) : EReal :=
  msgAt (dstPieces d w b) d.dmask r q

/-- A block of rows of the data is the data of the block: the message arrays are computed row by row, so the
    rows `f r` of the array's messages are the messages of the rows `f r` of the data. -/
def Rows.comap {R R' : Type} (f : R' → R) (d : Rows R) : Rows R' where
  et r := d.et (f r)
  smask r := d.smask (f r)
  dmask r := d.dmask (f r)
  slu r := d.slu (f r)
  dlu r := d.dlu (f r)
  emask r := d.emask (f r)
  ets r := d.ets (f r)
  smem r := d.smem (f r)
  dmem r := d.dmem (f r)
  emb r := d.emb (f r)

theorem srcMsg_comap {R R' : Type} (f : R' → R) (d : Rows R) (w b : Fin 128 → EReal) (r : R') (q : Fin 640) :
    srcMsg (d.comap f) w b r q = srcMsg d w b (f r) q := by
  obtain ⟨k, j, hq⟩ := exists_piece q
  unfold srcMsg
  rw [msgAt_piece _ _ _ q k j hq, msgAt_piece _ _ _ q k j hq]
  fin_cases k <;> rfl

theorem dstMsg_comap {R R' : Type} (f : R' → R) (d : Rows R) (w b : Fin 128 → EReal) (r : R') (q : Fin 640) :
    dstMsg (d.comap f) w b r q = dstMsg d w b (f r) q := by
  obtain ⟨k, j, hq⟩ := exists_piece q
  unfold dstMsg
  rw [msgAt_piece _ _ _ q k j hq, msgAt_piece _ _ _ q k j hq]
  fin_cases k <;> rfl

/-- The data of all 262144 events from arrays indexed by the event: seven vectors with one number per event, and
    three arrays with a row of 128 numbers per event. -/
def argRows (et smask dmask slu dlu emask ets : (⟨1, ![262144]⟩ : Shape).Idx → EReal)
    (smem dmem emb : (⟨2, ![262144, 128]⟩ : Shape).Idx → EReal) : Rows (Fin 262144) where
  et r := et (ValueIdx.ix1 r)
  smask r := smask (ValueIdx.ix1 r)
  dmask r := dmask (ValueIdx.ix1 r)
  slu r := slu (ValueIdx.ix1 r)
  dlu r := dlu (ValueIdx.ix1 r)
  emask r := emask (ValueIdx.ix1 r)
  ets r := ets (ValueIdx.ix1 r)
  smem r j := smem (ValueIdx.ix2 r j)
  dmem r j := dmem (ValueIdx.ix2 r j)
  emb r j := emb (ValueIdx.ix2 r j)

/-- A vector of 128 lane weights as a function of the lane. -/
def vecLane (w : (⟨1, ![128]⟩ : Shape).Idx → EReal) : Fin 128 → EReal := fun j => w (ValueIdx.ix1 j)

end Cert.Msg

end
-- ==== Proof.LibColumn.lean ====
/-
  A column read at an index.

  An array with one number per row is carried either as a vector of length a or as an a × 1 column; a kernel that
  scales every row of an a × b block by that number first spreads the column across the b lanes.  Both steps move no
  number: entry (i, 0) of the column is entry i of the vector, and entry (i, c) of the spread block is entry (i, 0)
  of the column, whatever the lane c.
-/
import Idealize.ShloMosaic.Lib.Pipeline.Value
import Idealize.ShloMosaic.Lib.ValueIdx
import Idealize.ShloMosaic.Lib.ValueIdxRank6

namespace Idealize.ShloMosaic.ValueIdx

open Idealize.ShloMosaic

variable {α : Type}

/-- An `[a]` array cast to the column `[a, 1]` reads, at `(i, u)`, the operand at `i`, whatever the unit
    coordinate `u`: both sit at position `i` of the row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `b` lanes reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelBlock.lean ====
/-
  What the kernel body leaves in its two output blocks, entry by entry.

  At one grid point the body holds the data of 2048 consecutive events: ten blocks with one row per event (seven
  columns of one number per event, three blocks of 128 numbers per event) and the two rows of lane weights.  It
  writes each 2048 × 640 output block by five stores of 2048 × 128, one per piece, each piece already multiplied,
  lane by lane, by the row's mask spread across the 128 lanes.  Read at row r and lane j of piece k, every store's
  value is piece k of the event's row at lane j times that row's mask: the block is the message function of the
  block's own data (`Cert.Msg.srcMsg`, `Cert.Msg.dstMsg`), the five stores tiling the 640 columns.
-/
import proofs.«148228_j88536455840071_1_alg».proof.Proof.Gen.KernelIdeal.Frame
import proofs.«148228_j88536455840071_1_alg».proof.Proof.Spec
import proofs.«148228_j88536455840071_1_alg».proof.Proof.LibColumn
import Idealize.ShloMosaic.Lib.Pipeline.Value
import Idealize.ShloMosaic.Lib.ValueIdx
import Idealize.ShloMosaic.Lib.ValueLayout

noncomputable section

namespace Cert.KernelIdeal.Block

open Cert.KernelIdeal Cert.KernelIdeal.Gen Idealize.ShloMosaic Idealize.ShloMosaic.ValueIdx Cert.Msg

theorem hz : (![0, 0] : Fin 2 → Nat) = fun _ => 0 := funext fun a => by fin_cases a <;> rfl

/-- The cosine of a block, entry by entry. -/
theorem cos_apply {s : Shape} {φ : FTy} (a : FVec Ideal s φ) (i : s.Idx) :
    Idealize.ShloMosaic.cos a i = Ideal.cos (a i) := rfl

/-- A column of the block spread over the 128 lanes, at `(r, j)`: the column at row `r`. -/
theorem spread_col (v : FVec Ideal S2048x1 .f32) (h : S2048x1.Broadcasts S2048x128) (r : Fin 2048) (j : Fin 128) :
    broadcastTo S2048x128 v h (ix2 r j) = v (ix2 r (0 : Fin 1)) := broadcastTo_a1_ab_apply v h r j

/-- The one row of lane weights spread over the 2048 rows, at `(r, j)`: the weight of lane `j`. -/
theorem spread_row (v : FVec Ideal S1x128 .f32) (h : S1x128.Broadcasts S2048x128) (r : Fin 2048) (j : Fin 128) :
    broadcastTo S2048x128 v h (ix2 r j) = v (ix2 (0 : Fin 1) j) := broadcastTo_1b_ab_apply v h r j

/-- The data of the 2048 events of a block, read off the ten blocks that have one row per event: the seven columns
    at `(r, 0)`, the three wide blocks at `(r, j)`. -/
def blockRows (x0 : FVec Ideal S2048x1 .f32) (x1 x2 : FVec Ideal S2048x128 .f32) (x3 x4 x5 x6 : FVec Ideal S2048x1 .f32)
    (x7 : FVec Ideal S2048x128 .f32) (x8 x9 : FVec Ideal S2048x1 .f32) : Rows (Fin 2048) where
  et r := x0 (ix2 r (0 : Fin 1))
  smask r := x3 (ix2 r (0 : Fin 1))
  dmask r := x4 (ix2 r (0 : Fin 1))
  slu r := x5 (ix2 r (0 : Fin 1))
  dlu r := x6 (ix2 r (0 : Fin 1))
  emask r := x8 (ix2 r (0 : Fin 1))
  ets r := x9 (ix2 r (0 : Fin 1))
  smem r j := x1 (ix2 r j)
  dmem r j := x2 (ix2 r j)
  emb r j := x7 (ix2 r j)

/-- A row of lane weights as a function of the lane. -/
def lane (x : FVec Ideal S1x128 .f32) : Fin 128 → EReal := fun j => x (ix2 (0 : Fin 1) j)

/-! ## The five stores of the source block -/

/-- Columns 0–127 of the source block: the event's type, times the event mask. -/
theorem src_store0 (x0 : FVec Ideal S2048x1 .f32) (x1 x2 : FVec Ideal S2048x128 .f32) (x3 x4 x5 x6 : FVec Ideal S2048x1 .f32) (x7 : FVec Ideal S2048x128 .f32) (x8 x9 : FVec Ideal S2048x1 .f32) (x10 x11 : FVec Ideal S1x128 .f32) (r r' : Fin 2048) (j : Fin 128) (q : Fin 640)
    (hr : r'.val = r.val) (hq : q.val = 128 * 0 + j.val) :
    k0_pay13 (F := Ideal) (k0_pay3 (View.ld x8 r0_0)) (k0_pay7 (View.ld x0 r0_0)) (ix2 r j) = srcMsg (blockRows x0 x1 x2 x3 x4 x5 x6 x7 x8 x9) (lane x10) (lane x11) r' q := by
  obtain rfl : r' = r := Fin.ext hr
  unfold srcMsg
  rw [msgAt_piece _ _ _ q (0 : Fin 5) j hq]
  simp only [k0_pay13, k0_pay3, k0_pay7, View.ld_unit_zero (S := S2048x1) hz, View.ld_unit_zero (S := S2048x128) hz, View.ld_unit_zero (S := S1x128) hz, shapeCast_self, mulf_apply, addf_apply, subf_apply, cos_apply, spread_col, spread_row]
  rfl

/-- Columns 128–255: the source's memory row times the source mask, times the event mask. -/
theorem src_store1 (x0 : FVec Ideal S2048x1 .f32) (x1 x2 : FVec Ideal S2048x128 .f32) (x3 x4 x5 x6 : FVec Ideal S2048x1 .f32) (x7 : FVec Ideal S2048x128 .f32) (x8 x9 : FVec Ideal S2048x1 .f32) (x10 x11 : FVec Ideal S1x128 .f32) (r r' : Fin 2048) (j : Fin 128) (q : Fin 640)
    (hr : r'.val = r.val) (hq : q.val = 128 * 1 + j.val) :
    k0_pay14 (F := Ideal) (k0_pay3 (View.ld x8 r0_0)) (k0_pay8 (View.ld x1 r0_1) (View.ld x3 r0_0)) (ix2 r j) = srcMsg (blockRows x0 x1 x2 x3 x4 x5 x6 x7 x8 x9) (lane x10) (lane x11) r' q := by
  obtain rfl : r' = r := Fin.ext hr
  unfold srcMsg
  rw [msgAt_piece _ _ _ q (1 : Fin 5) j hq]
  simp only [k0_pay14, k0_pay3, k0_pay8, View.ld_unit_zero (S := S2048x1) hz, View.ld_unit_zero (S := S2048x128) hz, View.ld_unit_zero (S := S1x128) hz, shapeCast_self, mulf_apply, addf_apply, subf_apply, cos_apply, spread_col, spread_row]
  rfl

/-- Columns 256–383: the destination's memory row times the destination mask, times the event mask. -/
theorem src_store2 (x0 : FVec Ideal S2048x1 .f32) (x1 x2 : FVec Ideal S2048x128 .f32) (x3 x4 x5 x6 : FVec Ideal S2048x1 .f32) (x7 : FVec Ideal S2048x128 .f32) (x8 x9 : FVec Ideal S2048x1 .f32) (x10 x11 : FVec Ideal S1x128 .f32) (r r' : Fin 2048) (j : Fin 128) (q : Fin 640)
    (hr : r'.val = r.val) (hq : q.val = 128 * 2 + j.val) :
    k0_pay15 (F := Ideal) (k0_pay3 (View.ld x8 r0_0)) (k0_pay9 (View.ld x2 r0_1) (View.ld x4 r0_0)) (ix2 r j) = srcMsg (blockRows x0 x1 x2 x3 x4 x5 x6 x7 x8 x9) (lane x10) (lane x11) r' q := by
  obtain rfl : r' = r := Fin.ext hr
  unfold srcMsg
  rw [msgAt_piece _ _ _ q (2 : Fin 5) j hq]
  simp only [k0_pay15, k0_pay3, k0_pay9, k0_pay2, View.ld_unit_zero (S := S2048x1) hz, View.ld_unit_zero (S := S2048x128) hz, View.ld_unit_zero (S := S1x128) hz, shapeCast_self, mulf_apply, addf_apply, subf_apply, cos_apply, spread_col, spread_row]
  rfl

/-- Columns 384–511: the source's time code, times the event mask. -/
theorem src_store3 (x0 : FVec Ideal S2048x1 .f32) (x1 x2 : FVec Ideal S2048x128 .f32) (x3 x4 x5 x6 : FVec Ideal S2048x1 .f32) (x7 : FVec Ideal S2048x128 .f32) (x8 x9 : FVec Ideal S2048x1 .f32) (x10 x11 : FVec Ideal S1x128 .f32) (r r' : Fin 2048) (j : Fin 128) (q : Fin 640)
    (hr : r'.val = r.val) (hq : q.val = 128 * 3 + j.val) :
    k0_pay16 (F := Ideal) (k0_pay3 (View.ld x8 r0_0)) (k0_pay6 (View.ld x11 r0_2)) (k0_pay11 (View.ld x4 r0_0) (View.ld x5 r0_0) (View.ld x9 r0_0)) (k0_pay12 (View.ld x10 r0_2)) (ix2 r j) = srcMsg (blockRows x0 x1 x2 x3 x4 x5 x6 x7 x8 x9) (lane x10) (lane x11) r' q := by
  obtain rfl : r' = r := Fin.ext hr
  unfold srcMsg
  rw [msgAt_piece _ _ _ q (3 : Fin 5) j hq]
  simp only [k0_pay16, k0_pay3, k0_pay6, k0_pay11, k0_pay12, k0_pay2, k0_pay4, k0_pay5, View.ld_unit_zero (S := S2048x1) hz, View.ld_unit_zero (S := S2048x128) hz, View.ld_unit_zero (S := S1x128) hz, shapeCast_self, mulf_apply, addf_apply, subf_apply, cos_apply, spread_col, spread_row]
  rfl

/-- Columns 512–639: the event's embedding, times the event mask. -/
theorem src_store4 (x0 : FVec Ideal S2048x1 .f32) (x1 x2 : FVec Ideal S2048x128 .f32) (x3 x4 x5 x6 : FVec Ideal S2048x1 .f32) (x7 : FVec Ideal S2048x128 .f32) (x8 x9 : FVec Ideal S2048x1 .f32) (x10 x11 : FVec Ideal S1x128 .f32) (r r' : Fin 2048) (j : Fin 128) (q : Fin 640)
    (hr : r'.val = r.val) (hq : q.val = 128 * 4 + j.val) :
    k0_pay17 (F := Ideal) (View.ld x7 r0_1) (k0_pay3 (View.ld x8 r0_0)) (ix2 r j) = srcMsg (blockRows x0 x1 x2 x3 x4 x5 x6 x7 x8 x9) (lane x10) (lane x11) r' q := by
  obtain rfl : r' = r := Fin.ext hr
  unfold srcMsg
  rw [msgAt_piece _ _ _ q (4 : Fin 5) j hq]
  simp only [k0_pay17, k0_pay3, View.ld_unit_zero (S := S2048x1) hz, View.ld_unit_zero (S := S2048x128) hz, View.ld_unit_zero (S := S1x128) hz, shapeCast_self, mulf_apply, addf_apply, subf_apply, cos_apply, spread_col, spread_row]
  rfl

/-! ## The five stores of the destination block -/

/-- Columns 0–127 of the destination block: the event's type, times the destination mask. -/
theorem dst_store0 (x0 : FVec Ideal S2048x1 .f32) (x1 x2 : FVec Ideal S2048x128 .f32) (x3 x4 x5 x6 : FVec Ideal S2048x1 .f32) (x7 : FVec Ideal S2048x128 .f32) (x8 x9 : FVec Ideal S2048x1 .f32) (x10 x11 : FVec Ideal S1x128 .f32) (r r' : Fin 2048) (j : Fin 128) (q : Fin 640)
    (hr : r'.val = r.val) (hq : q.val = 128 * 0 + j.val) :
    k0_pay18 (F := Ideal) (k0_pay2 (View.ld x4 r0_0)) (k0_pay7 (View.ld x0 r0_0)) (ix2 r j) = dstMsg (blockRows x0 x1 x2 x3 x4 x5 x6 x7 x8 x9) (lane x10) (lane x11) r' q := by
  obtain rfl : r' = r := Fin.ext hr
  unfold dstMsg
  rw [msgAt_piece _ _ _ q (0 : Fin 5) j hq]
  simp only [k0_pay18, k0_pay2, k0_pay7, View.ld_unit_zero (S := S2048x1) hz, View.ld_unit_zero (S := S2048x128) hz, View.ld_unit_zero (S := S1x128) hz, shapeCast_self, mulf_apply, addf_apply, subf_apply, cos_apply, spread_col, spread_row]
  rfl

/-- Columns 128–255: the destination's memory row times the destination mask, times the destination mask again. -/
theorem dst_store1 (x0 : FVec Ideal S2048x1 .f32) (x1 x2 : FVec Ideal S2048x128 .f32) (x3 x4 x5 x6 : FVec Ideal S2048x1 .f32) (x7 : FVec Ideal S2048x128 .f32) (x8 x9 : FVec Ideal S2048x1 .f32) (x10 x11 : FVec Ideal S1x128 .f32) (r r' : Fin 2048) (j : Fin 128) (q : Fin 640)
    (hr : r'.val = r.val) (hq : q.val = 128 * 1 + j.val) :
    k0_pay19 (F := Ideal) (k0_pay2 (View.ld x4 r0_0)) (k0_pay9 (View.ld x2 r0_1) (View.ld x4 r0_0)) (ix2 r j) = dstMsg (blockRows x0 x1 x2 x3 x4 x5 x6 x7 x8 x9) (lane x10) (lane x11) r' q := by
  obtain rfl : r' = r := Fin.ext hr
  unfold dstMsg
  rw [msgAt_piece _ _ _ q (1 : Fin 5) j hq]
  simp only [k0_pay19, k0_pay2, k0_pay9, View.ld_unit_zero (S := S2048x1) hz, View.ld_unit_zero (S := S2048x128) hz, View.ld_unit_zero (S := S1x128) hz, shapeCast_self, mulf_apply, addf_apply, subf_apply, cos_apply, spread_col, spread_row]
  rfl

/-- Columns 256–383: the source's memory row times the source mask, times the destination mask. -/
theorem dst_store2 (x0 : FVec Ideal S2048x1 .f32) (x1 x2 : FVec Ideal S2048x128 .f32) (x3 x4 x5 x6 : FVec Ideal S2048x1 .f32) (x7 : FVec Ideal S2048x128 .f32) (x8 x9 : FVec Ideal S2048x1 .f32) (x10 x11 : FVec Ideal S1x128 .f32) (r r' : Fin 2048) (j : Fin 128) (q : Fin 640)
    (hr : r'.val = r.val) (hq : q.val = 128 * 2 + j.val) :
    k0_pay20 (F := Ideal) (k0_pay2 (View.ld x4 r0_0)) (k0_pay8 (View.ld x1 r0_1) (View.ld x3 r0_0)) (ix2 r j) = dstMsg (blockRows x0 x1 x2 x3 x4 x5 x6 x7 x8 x9) (lane x10) (lane x11) r' q := by
  obtain rfl : r' = r := Fin.ext hr
  unfold dstMsg
  rw [msgAt_piece _ _ _ q (2 : Fin 5) j hq]
  simp only [k0_pay20, k0_pay2, k0_pay8, View.ld_unit_zero (S := S2048x1) hz, View.ld_unit_zero (S := S2048x128) hz, View.ld_unit_zero (S := S1x128) hz, shapeCast_self, mulf_apply, addf_apply, subf_apply, cos_apply, spread_col, spread_row]
  rfl

/-- Columns 384–511: the destination's time code, times the destination mask. -/
theorem dst_store3 (x0 : FVec Ideal S2048x1 .f32) (x1 x2 : FVec Ideal S2048x128 .f32) (x3 x4 x5 x6 : FVec Ideal S2048x1 .f32) (x7 : FVec Ideal S2048x128 .f32) (x8 x9 : FVec Ideal S2048x1 .f32) (x10 x11 : FVec Ideal S1x128 .f32) (r r' : Fin 2048) (j : Fin 128) (q : Fin 640)
    (hr : r'.val = r.val) (hq : q.val = 128 * 3 + j.val) :
    k0_pay21 (F := Ideal) (k0_pay2 (View.ld x4 r0_0)) (k0_pay5 (View.ld x10 r0_2)) (k0_pay6 (View.ld x11 r0_2)) (k0_pay10 (View.ld x4 r0_0) (View.ld x6 r0_0) (View.ld x9 r0_0)) (ix2 r j) = dstMsg (blockRows x0 x1 x2 x3 x4 x5 x6 x7 x8 x9) (lane x10) (lane x11) r' q := by
  obtain rfl : r' = r := Fin.ext hr
  unfold dstMsg
  rw [msgAt_piece _ _ _ q (3 : Fin 5) j hq]
  simp only [k0_pay21, k0_pay2, k0_pay5, k0_pay6, k0_pay10, k0_pay4, View.ld_unit_zero (S := S2048x1) hz, View.ld_unit_zero (S := S2048x128) hz, View.ld_unit_zero (S := S1x128) hz, shapeCast_self, mulf_apply, addf_apply, subf_apply, cos_apply, spread_col, spread_row]
  rfl

/-- Columns 512–639: the event's embedding, times the destination mask. -/
theorem dst_store4 (x0 : FVec Ideal S2048x1 .f32) (x1 x2 : FVec Ideal S2048x128 .f32) (x3 x4 x5 x6 : FVec Ideal S2048x1 .f32) (x7 : FVec Ideal S2048x128 .f32) (x8 x9 : FVec Ideal S2048x1 .f32) (x10 x11 : FVec Ideal S1x128 .f32) (r r' : Fin 2048) (j : Fin 128) (q : Fin 640)
    (hr : r'.val = r.val) (hq : q.val = 128 * 4 + j.val) :
    k0_pay1 (F := Ideal) (k0_pay2 (View.ld x4 r0_0)) (View.ld x7 r0_1) (ix2 r j) = dstMsg (blockRows x0 x1 x2 x3 x4 x5 x6 x7 x8 x9) (lane x10) (lane x11) r' q := by
  obtain rfl : r' = r := Fin.ext hr
  unfold dstMsg
  rw [msgAt_piece _ _ _ q (4 : Fin 5) j hq]
  simp only [k0_pay1, k0_pay2, View.ld_unit_zero (S := S2048x1) hz, View.ld_unit_zero (S := S2048x128) hz, View.ld_unit_zero (S := S1x128) hz, shapeCast_self, mulf_apply, addf_apply, subf_apply, cos_apply, spread_col, spread_row]
  rfl

/-! ## The two blocks -/

/-- The source block after the body: at `(r, q)` the source message of the block's data. Each of the five stores
    agrees with that function on its own 128 columns, and the five tile the block. -/
theorem out12_apply (x0 : FVec Ideal S2048x1 .f32) (x1 x2 : FVec Ideal S2048x128 .f32) (x3 x4 x5 x6 : FVec Ideal S2048x1 .f32) (x7 : FVec Ideal S2048x128 .f32) (x8 x9 : FVec Ideal S2048x1 .f32) (x10 x11 : FVec Ideal S1x128 .f32) (y : S2048x640.Idx) :
    out0_12 (F := Ideal) x0 x1 x2 x3 x4 x5 x6 x7 x8 x9 x10 x11 y = srcMsg (blockRows x0 x1 x2 x3 x4 x5 x6 x7 x8 x9) (lane x10) (lane x11) (y 0) (y 1) := by
  unfold out0_12
  refine View.canon_apply_of_pieces (Val := Elt Ideal) (fun y : S2048x640.Idx => srcMsg (blockRows x0 x1 x2 x3 x4 x5 x6 x7 x8 x9) (lane x10) (lane x11) (y 0) (y 1)) _ ?_ y (cover0_12 _ _ _ _ _ y)
  intro p hp x
  simp only [List.mem_cons, List.not_mem_nil, or_false] at hp
  rcases hp with rfl | rfl | rfl | rfl | rfl
  · obtain ⟨r, j, rfl⟩ : ∃ (r : Fin 2048) (j : Fin 128), x = ix2 r j := ⟨x 0, x 1, eq_ix2 x⟩
    exact src_store4 x0 x1 x2 x3 x4 x5 x6 x7 x8 x9 x10 x11 r _ j _ (by show 0 + 1 * r.val = r.val; omega) (by show 512 + 1 * j.val = 128 * 4 + j.val; omega)
  · obtain ⟨r, j, rfl⟩ : ∃ (r : Fin 2048) (j : Fin 128), x = ix2 r j := ⟨x 0, x 1, eq_ix2 x⟩
    exact src_store3 x0 x1 x2 x3 x4 x5 x6 x7 x8 x9 x10 x11 r _ j _ (by show 0 + 1 * r.val = r.val; omega) (by show 384 + 1 * j.val = 128 * 3 + j.val; omega)
  · obtain ⟨r, j, rfl⟩ : ∃ (r : Fin 2048) (j : Fin 128), x = ix2 r j := ⟨x 0, x 1, eq_ix2 x⟩
    exact src_store2 x0 x1 x2 x3 x4 x5 x6 x7 x8 x9 x10 x11 r _ j _ (by show 0 + 1 * r.val = r.val; omega) (by show 256 + 1 * j.val = 128 * 2 + j.val; omega)
  · obtain ⟨r, j, rfl⟩ : ∃ (r : Fin 2048) (j : Fin 128), x = ix2 r j := ⟨x 0, x 1, eq_ix2 x⟩
    exact src_store1 x0 x1 x2 x3 x4 x5 x6 x7 x8 x9 x10 x11 r _ j _ (by show 0 + 1 * r.val = r.val; omega) (by show 128 + 1 * j.val = 128 * 1 + j.val; omega)
  · obtain ⟨r, j, rfl⟩ : ∃ (r : Fin 2048) (j : Fin 128), x = ix2 r j := ⟨x 0, x 1, eq_ix2 x⟩
    exact src_store0 x0 x1 x2 x3 x4 x5 x6 x7 x8 x9 x10 x11 r _ j _ (by show 0 + 1 * r.val = r.val; omega) (by show 0 + 1 * j.val = 128 * 0 + j.val; omega)

/-- The destination block after the body: at `(r, q)` the destination message of the block's data. -/
theorem out13_apply (x0 : FVec Ideal S2048x1 .f32) (x1 x2 : FVec Ideal S2048x128 .f32) (x3 x4 x5 x6 : FVec Ideal S2048x1 .f32) (x7 : FVec Ideal S2048x128 .f32) (x8 x9 : FVec Ideal S2048x1 .f32) (x10 x11 : FVec Ideal S1x128 .f32) (y : S2048x640.Idx) :
    out0_13 (F := Ideal) x0 x1 x2 x3 x4 x5 x6 x7 x8 x9 x10 x11 y = dstMsg (blockRows x0 x1 x2 x3 x4 x5 x6 x7 x8 x9) (lane x10) (lane x11) (y 0) (y 1) := by
  unfold out0_13
  refine View.canon_apply_of_pieces (Val := Elt Ideal) (fun y : S2048x640.Idx => dstMsg (blockRows x0 x1 x2 x3 x4 x5 x6 x7 x8 x9) (lane x10) (lane x11) (y 0) (y 1)) _ ?_ y (cover0_13 _ _ _ _ _ y)
  intro p hp x
  simp only [List.mem_cons, List.not_mem_nil, or_false] at hp
  rcases hp with rfl | rfl | rfl | rfl | rfl
  · obtain ⟨r, j, rfl⟩ : ∃ (r : Fin 2048) (j : Fin 128), x = ix2 r j := ⟨x 0, x 1, eq_ix2 x⟩
    exact dst_store4 x0 x1 x2 x3 x4 x5 x6 x7 x8 x9 x10 x11 r _ j _ (by show 0 + 1 * r.val = r.val; omega) (by show 512 + 1 * j.val = 128 * 4 + j.val; omega)
  · obtain ⟨r, j, rfl⟩ : ∃ (r : Fin 2048) (j : Fin 128), x = ix2 r j := ⟨x 0, x 1, eq_ix2 x⟩
    exact dst_store3 x0 x1 x2 x3 x4 x5 x6 x7 x8 x9 x10 x11 r _ j _ (by show 0 + 1 * r.val = r.val; omega) (by show 384 + 1 * j.val = 128 * 3 + j.val; omega)
  · obtain ⟨r, j, rfl⟩ : ∃ (r : Fin 2048) (j : Fin 128), x = ix2 r j := ⟨x 0, x 1, eq_ix2 x⟩
    exact dst_store2 x0 x1 x2 x3 x4 x5 x6 x7 x8 x9 x10 x11 r _ j _ (by show 0 + 1 * r.val = r.val; omega) (by show 256 + 1 * j.val = 128 * 2 + j.val; omega)
  · obtain ⟨r, j, rfl⟩ : ∃ (r : Fin 2048) (j : Fin 128), x = ix2 r j := ⟨x 0, x 1, eq_ix2 x⟩
    exact dst_store1 x0 x1 x2 x3 x4 x5 x6 x7 x8 x9 x10 x11 r _ j _ (by show 0 + 1 * r.val = r.val; omega) (by show 128 + 1 * j.val = 128 * 1 + j.val; omega)
  · obtain ⟨r, j, rfl⟩ : ∃ (r : Fin 2048) (j : Fin 128), x = ix2 r j := ⟨x 0, x 1, eq_ix2 x⟩
    exact dst_store0 x0 x1 x2 x3 x4 x5 x6 x7 x8 x9 x10 x11 r _ j _ (by show 0 + 1 * r.val = r.val; omega) (by show 0 + 1 * j.val = 128 * 0 + j.val; omega)

end Cert.KernelIdeal.Block

end
-- ==== Proof.KernelArray.lean ====
/-
  The kernel's two message arrays after the run.

  The grid has 128 points; point t stages, of every array with one row per event, rows 2048·t … 2048·t + 2047 (the
  two rows of lane weights are staged whole at every point), and writes back rows 2048·t … 2048·t + 2047 of the two
  outputs.  The body's blocks are the message functions of the block's own data (Proof/KernelBlock.lean), and the
  messages are computed row by row, so what point t writes back is rows 2048·t … of ONE array-wide function: the
  messages of all 262144 events.  The 128 blocks tile the rows, so each output array ends holding that function.
-/
import proofs.«148228_j88536455840071_1_alg».proof.Proof.KernelBlock

noncomputable section

namespace Cert.KernelIdeal.Arr

open Cert.KernelIdeal Cert.KernelIdeal.Gen Idealize.ShloMosaic Idealize.ShloMosaic.TcCoe Idealize.ShloMosaic.ValueIdx Idealize.SL.Sem Cert.Msg
open Idealize.ShloMosaic.Pipeline (Dat)
open Cert.KernelIdeal.Block (blockRows lane)

variable (m : (ℓ : Loc nD τ sig) → Buf (Elt Ideal) ℓ) (ρ : Dev nD → PrngReg)

/-- The block index of every window at every point, decided over the 128 points: a window with one row per event
    is at block `(t, 0)`, the two rows of lane weights at block `(0, 0)`. -/
theorem idx_facts : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = t.val ∧ win0_12.index t (1 : Fin 2) = 0)
    ∧ (win0_13.index t (0 : Fin 2) = t.val ∧ win0_13.index t (1 : Fin 2) = 0) :=
  (by decide +kernel : ∀ t : Fin grid0.N, _)

/-- Row `r` of point `t`'s block is row `2048·t + r` of the array. -/
def row (t : Fin cfg0.N) (r : Fin 2048) : Fin 262144 :=
  ⟨2048 * t.val + r.val, by have := t.isLt; have := r.isLt; have hN : cfg0.N = 128 := N_0; omega⟩

/-! ## The input blocks and arrays, at their literal types -/

abbrev blk0 (c : Dev nD) (t : Fin cfg0.N) : FVec Ideal S2048x1 .f32 := iblk m c 0 t
abbrev arr0 (c : Dev nD) : FVec Ideal S262144x1 .f32 := V m c main_v29
abbrev blk1 (c : Dev nD) (t : Fin cfg0.N) : FVec Ideal S2048x128 .f32 := iblk m c 1 t
abbrev arr1 (c : Dev nD) : FVec Ideal S262144x128 .f32 := V m c main_v6
abbrev blk2 (c : Dev nD) (t : Fin cfg0.N) : FVec Ideal S2048x128 .f32 := iblk m c 2 t
abbrev arr2 (c : Dev nD) : FVec Ideal S262144x128 .f32 := V m c main_v13
abbrev blk3 (c : Dev nD) (t : Fin cfg0.N) : FVec Ideal S2048x1 .f32 := iblk m c 3 t
abbrev arr3 (c : Dev nD) : FVec Ideal S262144x1 .f32 := V m c main_v30
abbrev blk4 (c : Dev nD) (t : Fin cfg0.N) : FVec Ideal S2048x1 .f32 := iblk m c 4 t
abbrev arr4 (c : Dev nD) : FVec Ideal S262144x1 .f32 := V m c main_v31
abbrev blk5 (c : Dev nD) (t : Fin cfg0.N) : FVec Ideal S2048x1 .f32 := iblk m c 5 t
abbrev arr5 (c : Dev nD) : FVec Ideal S262144x1 .f32 := V m c main_v32
abbrev blk6 (c : Dev nD) (t : Fin cfg0.N) : FVec Ideal S2048x1 .f32 := iblk m c 6 t
abbrev arr6 (c : Dev nD) : FVec Ideal S262144x1 .f32 := V m c main_v33
abbrev blk7 (c : Dev nD) (t : Fin cfg0.N) : FVec Ideal S2048x128 .f32 := iblk m c 7 t
abbrev arr7 (c : Dev nD) : FVec Ideal S262144x128 .f32 := V m c main_arg5
abbrev blk8 (c : Dev nD) (t : Fin cfg0.N) : FVec Ideal S2048x1 .f32 := iblk m c 8 t
abbrev arr8 (c : Dev nD) : FVec Ideal S262144x1 .f32 := V m c main_v34
abbrev blk9 (c : Dev nD) (t : Fin cfg0.N) : FVec Ideal S2048x1 .f32 := iblk m c 9 t
abbrev arr9 (c : Dev nD) : FVec Ideal S262144x1 .f32 := V m c main_v35
abbrev blk10 (c : Dev nD) (t : Fin cfg0.N) : FVec Ideal S1x128 .f32 := iblk m c 10 t
abbrev arr10 (c : Dev nD) : FVec Ideal S1x128 .f32 := V m c main_v36
abbrev blk11 (c : Dev nD) (t : Fin cfg0.N) : FVec Ideal S1x128 .f32 := iblk m c 11 t
abbrev arr11 (c : Dev nD) : FVec Ideal S1x128 .f32 := V m c main_v37

/-! ## Each input block is rows of its array -/

/-- Input 0's block at point `t` holds rows `2048·t … 2048·t + 2047` of its column. -/
theorem read0 (c : Dev nD) (t : Fin cfg0.N) (r : Fin 2048) :
    blk0 m c t (ix2 r (0 : Fin 1)) = arr0 m c (ix2 (row t r) (0 : Fin 1)) := by
  have hi := (idx_facts t).1
  unfold blk0 arr0 iblk
  rw [View.read_apply]
  show V m c main_v29 _ = V m c main_v29 _
  congr 1
  funext a
  apply Fin.ext
  match a with
  | ⟨0, _⟩ => show win0_0.index t (0 : Fin 2) * 2048 + 1 * r.val = 2048 * t.val + r.val; rw [hi.1]; omega
  | ⟨1, _⟩ => show win0_0.index t (1 : Fin 2) * 1 + 1 * 0 = 0; rw [hi.2]

/-- Input 1's block at point `t` holds rows `2048·t … 2048·t + 2047` of its array, all 128 lanes. -/
theorem read1 (c : Dev nD) (t : Fin cfg0.N) (r : Fin 2048) (j : Fin 128) :
    blk1 m c t (ix2 r j) = arr1 m c (ix2 (row t r) j) := by
  have hi := (idx_facts t).2.1
  unfold blk1 arr1 iblk
  rw [View.read_apply]
  show V m c main_v6 _ = V m c main_v6 _
  congr 1
  funext a
  apply Fin.ext
  match a with
  | ⟨0, _⟩ => show win0_1.index t (0 : Fin 2) * 2048 + 1 * r.val = 2048 * t.val + r.val; rw [hi.1]; omega
  | ⟨1, _⟩ => show win0_1.index t (1 : Fin 2) * 128 + 1 * j.val = j.val; rw [hi.2]; omega

/-- Input 2's block at point `t` holds rows `2048·t … 2048·t + 2047` of its array, all 128 lanes. -/
theorem read2 (c : Dev nD) (t : Fin cfg0.N) (r : Fin 2048) (j : Fin 128) :
    blk2 m c t (ix2 r j) = arr2 m c (ix2 (row t r) j) := by
  have hi := (idx_facts t).2.2.1
  unfold blk2 arr2 iblk
  rw [View.read_apply]
  show V m c main_v13 _ = V m c main_v13 _
  congr 1
  funext a
  apply Fin.ext
  match a with
  | ⟨0, _⟩ => show win0_2.index t (0 : Fin 2) * 2048 + 1 * r.val = 2048 * t.val + r.val; rw [hi.1]; omega
  | ⟨1, _⟩ => show win0_2.index t (1 : Fin 2) * 128 + 1 * j.val = j.val; rw [hi.2]; omega

/-- Input 3's block at point `t` holds rows `2048·t … 2048·t + 2047` of its column. -/
theorem read3 (c : Dev nD) (t : Fin cfg0.N) (r : Fin 2048) :
    blk3 m c t (ix2 r (0 : Fin 1)) = arr3 m c (ix2 (row t r) (0 : Fin 1)) := by
  have hi := (idx_facts t).2.2.2.1
  unfold blk3 arr3 iblk
  rw [View.read_apply]
  show V m c main_v30 _ = V m c main_v30 _
  congr 1
  funext a
  apply Fin.ext
  match a with
  | ⟨0, _⟩ => show win0_3.index t (0 : Fin 2) * 2048 + 1 * r.val = 2048 * t.val + r.val; rw [hi.1]; omega
  | ⟨1, _⟩ => show win0_3.index t (1 : Fin 2) * 1 + 1 * 0 = 0; rw [hi.2]

/-- Input 4's block at point `t` holds rows `2048·t … 2048·t + 2047` of its column. -/
theorem read4 (c : Dev nD) (t : Fin cfg0.N) (r : Fin 2048) :
    blk4 m c t (ix2 r (0 : Fin 1)) = arr4 m c (ix2 (row t r) (0 : Fin 1)) := by
  have hi := (idx_facts t).2.2.2.2.1
  unfold blk4 arr4 iblk
  rw [View.read_apply]
  show V m c main_v31 _ = V m c main_v31 _
  congr 1
  funext a
  apply Fin.ext
  match a with
  | ⟨0, _⟩ => show win0_4.index t (0 : Fin 2) * 2048 + 1 * r.val = 2048 * t.val + r.val; rw [hi.1]; omega
  | ⟨1, _⟩ => show win0_4.index t (1 : Fin 2) * 1 + 1 * 0 = 0; rw [hi.2]

/-- Input 5's block at point `t` holds rows `2048·t … 2048·t + 2047` of its column. -/
theorem read5 (c : Dev nD) (t : Fin cfg0.N) (r : Fin 2048) :
    blk5 m c t (ix2 r (0 : Fin 1)) = arr5 m c (ix2 (row t r) (0 : Fin 1)) := by
  have hi := (idx_facts t).2.2.2.2.2.1
  unfold blk5 arr5 iblk
  rw [View.read_apply]
  show V m c main_v32 _ = V m c main_v32 _
  congr 1
  funext a
  apply Fin.ext
  match a with
  | ⟨0, _⟩ => show win0_5.index t (0 : Fin 2) * 2048 + 1 * r.val = 2048 * t.val + r.val; rw [hi.1]; omega
  | ⟨1, _⟩ => show win0_5.index t (1 : Fin 2) * 1 + 1 * 0 = 0; rw [hi.2]

/-- Input 6's block at point `t` holds rows `2048·t … 2048·t + 2047` of its column. -/
theorem read6 (c : Dev nD) (t : Fin cfg0.N) (r : Fin 2048) :
    blk6 m c t (ix2 r (0 : Fin 1)) = arr6 m c (ix2 (row t r) (0 : Fin 1)) := by
  have hi := (idx_facts t).2.2.2.2.2.2.1
  unfold blk6 arr6 iblk
  rw [View.read_apply]
  show V m c main_v33 _ = V m c main_v33 _
  congr 1
  funext a
  apply Fin.ext
  match a with
  | ⟨0, _⟩ => show win0_6.index t (0 : Fin 2) * 2048 + 1 * r.val = 2048 * t.val + r.val; rw [hi.1]; omega
  | ⟨1, _⟩ => show win0_6.index t (1 : Fin 2) * 1 + 1 * 0 = 0; rw [hi.2]

/-- Input 7's block at point `t` holds rows `2048·t … 2048·t + 2047` of its array, all 128 lanes. -/
theorem read7 (c : Dev nD) (t : Fin cfg0.N) (r : Fin 2048) (j : Fin 128) :
    blk7 m c t (ix2 r j) = arr7 m c (ix2 (row t r) j) := by
  have hi := (idx_facts t).2.2.2.2.2.2.2.1
  unfold blk7 arr7 iblk
  rw [View.read_apply]
  show V m c main_arg5 _ = V m c main_arg5 _
  congr 1
  funext a
  apply Fin.ext
  match a with
  | ⟨0, _⟩ => show win0_7.index t (0 : Fin 2) * 2048 + 1 * r.val = 2048 * t.val + r.val; rw [hi.1]; omega
  | ⟨1, _⟩ => show win0_7.index t (1 : Fin 2) * 128 + 1 * j.val = j.val; rw [hi.2]; omega

/-- Input 8's block at point `t` holds rows `2048·t … 2048·t + 2047` of its column. -/
theorem read8 (c : Dev nD) (t : Fin cfg0.N) (r : Fin 2048) :
    blk8 m c t (ix2 r (0 : Fin 1)) = arr8 m c (ix2 (row t r) (0 : Fin 1)) := by
  have hi := (idx_facts t).2.2.2.2.2.2.2.2.1
  unfold blk8 arr8 iblk
  rw [View.read_apply]
  show V m c main_v34 _ = V m c main_v34 _
  congr 1
  funext a
  apply Fin.ext
  match a with
  | ⟨0, _⟩ => show win0_8.index t (0 : Fin 2) * 2048 + 1 * r.val = 2048 * t.val + r.val; rw [hi.1]; omega
  | ⟨1, _⟩ => show win0_8.index t (1 : Fin 2) * 1 + 1 * 0 = 0; rw [hi.2]

/-- Input 9's block at point `t` holds rows `2048·t … 2048·t + 2047` of its column. -/
theorem read9 (c : Dev nD) (t : Fin cfg0.N) (r : Fin 2048) :
    blk9 m c t (ix2 r (0 : Fin 1)) = arr9 m c (ix2 (row t r) (0 : Fin 1)) := by
  have hi := (idx_facts t).2.2.2.2.2.2.2.2.2.1
  unfold blk9 arr9 iblk
  rw [View.read_apply]
  show V m c main_v35 _ = V m c main_v35 _
  congr 1
  funext a
  apply Fin.ext
  match a with
  | ⟨0, _⟩ => show win0_9.index t (0 : Fin 2) * 2048 + 1 * r.val = 2048 * t.val + r.val; rw [hi.1]; omega
  | ⟨1, _⟩ => show win0_9.index t (1 : Fin 2) * 1 + 1 * 0 = 0; rw [hi.2]

/-- Input 10's block is, at every point, the whole row of lane weights. -/
theorem read10 (c : Dev nD) (t : Fin cfg0.N) (j : Fin 128) :
    blk10 m c t (ix2 (0 : Fin 1) j) = arr10 m c (ix2 (0 : Fin 1) j) := by
  have hi := (idx_facts t).2.2.2.2.2.2.2.2.2.2.1
  unfold blk10 arr10 iblk
  rw [View.read_apply]
  show V m c main_v36 _ = V m c main_v36 _
  congr 1
  funext a
  apply Fin.ext
  match a with
  | ⟨0, _⟩ => show win0_10.index t (0 : Fin 2) * 1 + 1 * 0 = 0; rw [hi.1]
  | ⟨1, _⟩ => show win0_10.index t (1 : Fin 2) * 128 + 1 * j.val = j.val; rw [hi.2]; omega

/-- Input 11's block is, at every point, the whole row of lane weights. -/
theorem read11 (c : Dev nD) (t : Fin cfg0.N) (j : Fin 128) :
    blk11 m c t (ix2 (0 : Fin 1) j) = arr11 m c (ix2 (0 : Fin 1) j) := by
  have hi := (idx_facts t).2.2.2.2.2.2.2.2.2.2.2.1
  unfold blk11 arr11 iblk
  rw [View.read_apply]
  show V m c main_v37 _ = V m c main_v37 _
  congr 1
  funext a
  apply Fin.ext
  match a with
  | ⟨0, _⟩ => show win0_11.index t (0 : Fin 2) * 1 + 1 * 0 = 0; rw [hi.1]
  | ⟨1, _⟩ => show win0_11.index t (1 : Fin 2) * 128 + 1 * j.val = j.val; rw [hi.2]; omega

/-! ## The data of a block is the data of the array at the block's rows -/

/-- The data of all 262144 events, read off the ten arrays with one row per event as the region finds them. -/
def arrRows (c : Dev nD) : Rows (Fin 262144) where
  et r := arr0 m c (ix2 r (0 : Fin 1))
  smask r := arr3 m c (ix2 r (0 : Fin 1))
  dmask r := arr4 m c (ix2 r (0 : Fin 1))
  slu r := arr5 m c (ix2 r (0 : Fin 1))
  dlu r := arr6 m c (ix2 r (0 : Fin 1))
  emask r := arr8 m c (ix2 r (0 : Fin 1))
  ets r := arr9 m c (ix2 r (0 : Fin 1))
  smem r j := arr1 m c (ix2 r j)
  dmem r j := arr2 m c (ix2 r j)
  emb r j := arr7 m c (ix2 r j)

set_option maxHeartbeats 1000000 in
theorem blockRows_eq (c : Dev nD) (t : Fin cfg0.N) :
    blockRows (blk0 m c t) (blk1 m c t) (blk2 m c t) (blk3 m c t) (blk4 m c t) (blk5 m c t) (blk6 m c t) (blk7 m c t) (blk8 m c t) (blk9 m c t) = (arrRows m c).comap (row t) := by
  apply Rows.ext
  · funext r
    show blk0 m c t (ix2 r (0 : Fin 1)) = arr0 m c (ix2 (row t r) (0 : Fin 1))
    exact read0 m c t r
  · funext r
    show blk3 m c t (ix2 r (0 : Fin 1)) = arr3 m c (ix2 (row t r) (0 : Fin 1))
    exact read3 m c t r
  · funext r
    show blk4 m c t (ix2 r (0 : Fin 1)) = arr4 m c (ix2 (row t r) (0 : Fin 1))
    exact read4 m c t r
  · funext r
    show blk5 m c t (ix2 r (0 : Fin 1)) = arr5 m c (ix2 (row t r) (0 : Fin 1))
    exact read5 m c t r
  · funext r
    show blk6 m c t (ix2 r (0 : Fin 1)) = arr6 m c (ix2 (row t r) (0 : Fin 1))
    exact read6 m c t r
  · funext r
    show blk8 m c t (ix2 r (0 : Fin 1)) = arr8 m c (ix2 (row t r) (0 : Fin 1))
    exact read8 m c t r
  · funext r
    show blk9 m c t (ix2 r (0 : Fin 1)) = arr9 m c (ix2 (row t r) (0 : Fin 1))
    exact read9 m c t r
  · funext r j
    show blk1 m c t (ix2 r j) = arr1 m c (ix2 (row t r) j)
    exact read1 m c t r j
  · funext r j
    show blk2 m c t (ix2 r j) = arr2 m c (ix2 (row t r) j)
    exact read2 m c t r j
  · funext r j
    show blk7 m c t (ix2 r j) = arr7 m c (ix2 (row t r) j)
    exact read7 m c t r j

theorem lane10_eq (c : Dev nD) (t : Fin cfg0.N) : lane (blk10 m c t) = lane (arr10 m c) :=
  funext fun j => read10 m c t j

theorem lane11_eq (c : Dev nD) (t : Fin cfg0.N) : lane (blk11 m c t) = lane (arr11 m c) :=
  funext fun j => read11 m c t j

/-! ## The two arrays -/

/-- The source messages of all events, as an array. -/
def srcArr (c : Dev nD) : S262144x640.Idx → EReal :=
  fun y => srcMsg (arrRows m c) (lane (arr10 m c)) (lane (arr11 m c)) (y 0) (y 1)

/-- The destination messages of all events, as an array. -/
def dstArr (c : Dev nD) : S262144x640.Idx → EReal :=
  fun y => dstMsg (arrRows m c) (lane (arr10 m c)) (lane (arr11 m c)) (y 0) (y 1)

/-- What point `t` writes back of the first output is rows `2048·t …` of the source messages of all events. -/
theorem flushed12_eq (c : Dev nD) (t : Fin cfg0.N) :
    (dats m 0 c).flushed 12 t = ((cfg0.win 12).blk t).view.read (Elt Ideal) (srcArr m c) := by
  have hi := (idx_facts t).2.2.2.2.2.2.2.2.2.2.2.2.1
  show (cfg0.win 12).cut (grid0.coords t) ((dats m 0 c).after 12 t) = _
  rw [after0_12]
  funext y
  rw [View.read_apply]
  show out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y = srcArr m c (((cfg0.win 12).blk t).view.emb y)
  refine (Block.out12_apply (blk0 m c t) (blk1 m c t) (blk2 m c t) (blk3 m c t) (blk4 m c t) (blk5 m c t) (blk6 m c t) (blk7 m c t) (blk8 m c t) (blk9 m c t) (blk10 m c t) (blk11 m c t) y).trans ?_
  rw [blockRows_eq m c t, lane10_eq m c t, lane11_eq m c t]
  refine (srcMsg_comap (row t) (arrRows m c) (lane (arr10 m c)) (lane (arr11 m c)) (y 0) (y 1)).trans ?_
  unfold srcArr
  exact congrArg₂ (srcMsg (arrRows m c) (lane (arr10 m c)) (lane (arr11 m c)))
    (Fin.ext (by
      show 2048 * t.val + (y 0).val = win0_12.index t (0 : Fin 2) * 2048 + 1 * (y 0).val
      rw [hi.1]; omega))
    (Fin.ext (by
      show (y 1).val = win0_12.index t (1 : Fin 2) * 640 + 1 * (y 1).val
      rw [hi.2]; omega))

/-- An index of the array is in point `t`'s block iff each coordinate is in the block's range on its axis. -/
theorem mem_blk12 (t : Fin cfg0.N) (i : S262144x640.Idx) :
    i ∈ ((cfg0.win 12).blk t).view.set ↔ ∀ a : Fin 2, win0_12.index t a * S2048x640.size a ≤ (i a).val ∧ (i a).val < win0_12.index t a * S2048x640.size a + S2048x640.size a := by
  show i ∈ ((View.whole main_v38_0).slice (win0_12.rect t)).set ↔ _
  rw [View.set_slice_whole, Rect.mem_set_unit]
  exact Iff.rfl

/-- Every row of the array is in the block of the point that holds it: row `i` in the block of point `i / 2048`. -/
theorem cover12 (i : S262144x640.Idx) :
    ∃ t : Fin cfg0.N, (cfg0.win 12).flush t = true ∧ i ∈ ((cfg0.win 12).blk t).view.set := by
  have hN : cfg0.N = 128 := N_0
  have hi0 : (i 0).val < 262144 := (i 0).isLt
  have hi1 : (i 1).val < 640 := (i 1).isLt
  refine ⟨⟨(i 0).val / 2048, by rw [hN]; omega⟩, flush0_12 _, ?_⟩
  rw [mem_blk12]
  have hi := (idx_facts (⟨(i 0).val / 2048, by rw [hN]; omega⟩ : Fin cfg0.N)).2.2.2.2.2.2.2.2.2.2.2.2.1
  intro a
  match a with
  | ⟨0, _⟩ =>
    show win0_12.index _ (0 : Fin 2) * 2048 ≤ (i 0).val ∧ (i 0).val < win0_12.index _ (0 : Fin 2) * 2048 + 2048
    rw [hi.1]
    show (i 0).val / 2048 * 2048 ≤ (i 0).val ∧ (i 0).val < (i 0).val / 2048 * 2048 + 2048
    omega
  | ⟨1, _⟩ =>
    show win0_12.index _ (1 : Fin 2) * 640 ≤ (i 1).val ∧ (i 1).val < win0_12.index _ (1 : Fin 2) * 640 + 640
    rw [hi.2]
    omega

/-- The first output array after the run: the source messages of all events. -/
theorem final12 (c : Dev nD) : (dats m 0 c).arrAt 12 cfg0.N = srcArr m c :=
  (dats m 0 c).arrAt_eq_of_cover 12 (srcArr m c) (fun t _ => flushed12_eq m c t) cover12

/-- What point `t` writes back of the second output is rows `2048·t …` of the destination messages of all events. -/
theorem flushed13_eq (c : Dev nD) (t : Fin cfg0.N) :
    (dats m 0 c).flushed 13 t = ((cfg0.win 13).blk t).view.read (Elt Ideal) (dstArr m c) := by
  have hi := (idx_facts t).2.2.2.2.2.2.2.2.2.2.2.2.2
  show (cfg0.win 13).cut (grid0.coords t) ((dats m 0 c).after 13 t) = _
  rw [after0_13]
  funext y
  rw [View.read_apply]
  show out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y = dstArr m c (((cfg0.win 13).blk t).view.emb y)
  refine (Block.out13_apply (blk0 m c t) (blk1 m c t) (blk2 m c t) (blk3 m c t) (blk4 m c t) (blk5 m c t) (blk6 m c t) (blk7 m c t) (blk8 m c t) (blk9 m c t) (blk10 m c t) (blk11 m c t) y).trans ?_
  rw [blockRows_eq m c t, lane10_eq m c t, lane11_eq m c t]
  refine (dstMsg_comap (row t) (arrRows m c) (lane (arr10 m c)) (lane (arr11 m c)) (y 0) (y 1)).trans ?_
  unfold dstArr
  exact congrArg₂ (dstMsg (arrRows m c) (lane (arr10 m c)) (lane (arr11 m c)))
    (Fin.ext (by
      show 2048 * t.val + (y 0).val = win0_13.index t (0 : Fin 2) * 2048 + 1 * (y 0).val
      rw [hi.1]; omega))
    (Fin.ext (by
      show (y 1).val = win0_13.index t (1 : Fin 2) * 640 + 1 * (y 1).val
      rw [hi.2]; omega))

/-- An index of the array is in point `t`'s block iff each coordinate is in the block's range on its axis. -/
theorem mem_blk13 (t : Fin cfg0.N) (i : S262144x640.Idx) :
    i ∈ ((cfg0.win 13).blk t).view.set ↔ ∀ a : Fin 2, win0_13.index t a * S2048x640.size a ≤ (i a).val ∧ (i a).val < win0_13.index t a * S2048x640.size a + S2048x640.size a := by
  show i ∈ ((View.whole main_v38_1).slice (win0_13.rect t)).set ↔ _
  rw [View.set_slice_whole, Rect.mem_set_unit]
  exact Iff.rfl

/-- Every row of the array is in the block of the point that holds it: row `i` in the block of point `i / 2048`. -/
theorem cover13 (i : S262144x640.Idx) :
    ∃ t : Fin cfg0.N, (cfg0.win 13).flush t = true ∧ i ∈ ((cfg0.win 13).blk t).view.set := by
  have hN : cfg0.N = 128 := N_0
  have hi0 : (i 0).val < 262144 := (i 0).isLt
  have hi1 : (i 1).val < 640 := (i 1).isLt
  refine ⟨⟨(i 0).val / 2048, by rw [hN]; omega⟩, flush0_13 _, ?_⟩
  rw [mem_blk13]
  have hi := (idx_facts (⟨(i 0).val / 2048, by rw [hN]; omega⟩ : Fin cfg0.N)).2.2.2.2.2.2.2.2.2.2.2.2.2
  intro a
  match a with
  | ⟨0, _⟩ =>
    show win0_13.index _ (0 : Fin 2) * 2048 ≤ (i 0).val ∧ (i 0).val < win0_13.index _ (0 : Fin 2) * 2048 + 2048
    rw [hi.1]
    show (i 0).val / 2048 * 2048 ≤ (i 0).val ∧ (i 0).val < (i 0).val / 2048 * 2048 + 2048
    omega
  | ⟨1, _⟩ =>
    show win0_13.index _ (1 : Fin 2) * 640 ≤ (i 1).val ∧ (i 1).val < win0_13.index _ (1 : Fin 2) * 640 + 640
    rw [hi.2]
    omega

/-- The second output array after the run: the destination messages of all events. -/
theorem final13 (c : Dev nD) : (dats m 0 c).arrAt 13 cfg0.N = dstArr m c :=
  (dats m 0 c).arrAt_eq_of_cover 13 (dstArr m c) (fun t _ => flushed13_eq m c t) cover13

end Cert.KernelIdeal.Arr

end
-- ==== Proof.RefValue.lean ====
/-
  The reference's two message arrays, entry by entry.

  The reference lays the five pieces of a row side by side first and scales the whole 640-wide row by its mask
  afterwards.  Read at row r and column 128·k + j, the joined row holds piece k at (r, j), and the mask spread over
  the 640 columns holds the row's mask: the same number as the message function of the layer's data
  (`Cert.Msg.srcMsg`, `Cert.Msg.dstMsg`).  The gathered rows and gathered update times are taken as they come: this
  module does not look inside a gather.
-/
import proofs.«148228_j88536455840071_1_alg».proof.Proof.Gen.ReferenceIdeal.Read
import proofs.«148228_j88536455840071_1_alg».proof.Proof.Spec
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx Cert.Msg

/-! ## Where a spread vector is read -/

theorem i_v2 (r : Fin 262144) (j : Fin 128) : idx_main_v1 (idx_main_v2 (ix2 r j)) = ix1 r :=
  funext fun a => match a with | ⟨0, _⟩ => rfl
theorem i_v11 (r : Fin 262144) (j : Fin 128) : idx_main_v10 (idx_main_v11 (ix2 r j)) = ix1 r :=
  funext fun a => match a with | ⟨0, _⟩ => rfl
theorem i_v21 (r : Fin 262144) (j : Fin 128) : idx_main_v20 (idx_main_v21 (ix2 r j)) = ix1 r :=
  funext fun a => match a with | ⟨0, _⟩ => rfl
theorem i_v41 (r : Fin 262144) (j : Fin 128) : idx_main_v39 (idx_main_v41 (ix2 r j)) = ix1 r :=
  funext fun a => match a with | ⟨0, _⟩ => rfl
theorem i_v52 (r : Fin 262144) (j : Fin 128) : idx_main_v50 (idx_main_v52 (ix2 r j)) = ix1 r :=
  funext fun a => match a with | ⟨0, _⟩ => rfl
theorem i_v61 (r : Fin 262144) (q : Fin 640) : idx_main_v60 (idx_main_v61 (ix2 r q)) = ix1 r :=
  funext fun a => match a with | ⟨0, _⟩ => rfl
theorem i_v65 (r : Fin 262144) (q : Fin 640) : idx_main_v64 (idx_main_v65 (ix2 r q)) = ix1 r :=
  funext fun a => match a with | ⟨0, _⟩ => rfl

theorem i_v42 (r : Fin 262144) (j : Fin 128) : idx_main_v40 (idx_main_v42 (ix2 r j)) = ix1 j :=
  funext fun a => match a with | ⟨0, _⟩ => rfl
theorem i_v45 (r : Fin 262144) (j : Fin 128) : idx_main_v44 (idx_main_v45 (ix2 r j)) = ix1 j :=
  funext fun a => match a with | ⟨0, _⟩ => rfl
theorem i_v53 (r : Fin 262144) (j : Fin 128) : idx_main_v51 (idx_main_v53 (ix2 r j)) = ix1 j :=
  funext fun a => match a with | ⟨0, _⟩ => rfl
theorem i_v56 (r : Fin 262144) (j : Fin 128) : idx_main_v55 (idx_main_v56 (ix2 r j)) = ix1 j :=
  funext fun a => match a with | ⟨0, _⟩ => rfl

/-! ## The layer's data, from the reference's arguments -/

/-- The data of all events as the reference reads it: the event type converted to a real, the masks, times and
    embedding straight from the arguments, the endpoints' memory rows and update times through the gathers. -/
def refRows (a0 a1 : (⟨S262144, .i32⟩ : BufTy).Contents (Elt Ideal)) (a2 : (⟨S262144, .f32⟩ : BufTy).Contents (Elt Ideal)) (a3 : (⟨S262144, .i32⟩ : BufTy).Contents (Elt Ideal)) (a4 : (⟨S262144, .f32⟩ : BufTy).Contents (Elt Ideal)) (a5 : (⟨S262144x128, .f32⟩ : BufTy).Contents (Elt Ideal)) (a6 a7 : (⟨S262144, .f32⟩ : BufTy).Contents (Elt Ideal)) (a8 : (⟨S100000x128, .f32⟩ : BufTy).Contents (Elt Ideal)) (a9 : (⟨S100000, .f32⟩ : BufTy).Contents (Elt Ideal)) : Rows (Fin 262144) :=
  argRows (val_main_v0 (F := Ideal) a0) a2 a4 (val_main_v29 (F := Ideal) a1 a9) (val_main_v36 (F := Ideal) a3 a9) a6 a7
    (val_main_v9 (F := Ideal) a1 a8) (val_main_v19 (F := Ideal) a3 a8) a5

/-! ## The two arrays -/

/-- The reference's source messages at `(r, q)`. -/
theorem ref_src (a0 a1 : (⟨S262144, .i32⟩ : BufTy).Contents (Elt Ideal)) (a2 : (⟨S262144, .f32⟩ : BufTy).Contents (Elt Ideal)) (a3 : (⟨S262144, .i32⟩ : BufTy).Contents (Elt Ideal)) (a4 : (⟨S262144, .f32⟩ : BufTy).Contents (Elt Ideal)) (a5 : (⟨S262144x128, .f32⟩ : BufTy).Contents (Elt Ideal)) (a6 a7 : (⟨S262144, .f32⟩ : BufTy).Contents (Elt Ideal)) (a8 : (⟨S100000x128, .f32⟩ : BufTy).Contents (Elt Ideal)) (a9 : (⟨S100000, .f32⟩ : BufTy).Contents (Elt Ideal)) (a10 a11 : (⟨S128, .f32⟩ : BufTy).Contents (Elt Ideal)) (r : Fin 262144) (q : Fin 640) :
    val_main_v62 (F := Ideal) a0 a1 a2 a3 a4 a5 a6 a7 a8 a9 a10 a11 (ix2 r q) = srcMsg (refRows a0 a1 a2 a3 a4 a5 a6 a7 a8 a9) (vecLane a10) (vecLane a11) r q := by
  obtain ⟨k, j, hq⟩ := exists_piece q
  have hc : val_main_v59 (F := Ideal) a0 a1 a2 a3 a4 a5 a7 a8 a9 a10 a11 (ix2 r q) = srcPieces (refRows a0 a1 a2 a3 a4 a5 a6 a7 a8 a9) (vecLane a10) (vecLane a11) k r j := by
    unfold val_main_v59
    fin_cases k
    · have hq' : q.val = 128 * 0 + j.val := hq
      refine (concatenate_apply_piece (1 : Fin 2) _ _ (ix2 r q) 0 (by show (0 : Nat) < 5; decide) S262144x128 (val_main_v2 (F := Ideal) a0) rfl rfl (128 * 0) rfl (ix2 r j)
        (fun b hb => by match b with | ⟨0, _⟩ => rfl | ⟨1, _⟩ => exact absurd rfl hb) (by show 128 * 0 + j.val = q.val; omega)).trans ?_
      simp only [val_main_v2_apply, val_main_v1_apply, i_v2]
      rfl
    · have hq' : q.val = 128 * 1 + j.val := hq
      refine (concatenate_apply_piece (1 : Fin 2) _ _ (ix2 r q) 1 (by show (1 : Nat) < 5; decide) S262144x128 (val_main_v12 (F := Ideal) a1 a2 a8) rfl rfl (128 * 1) rfl (ix2 r j)
        (fun b hb => by match b with | ⟨0, _⟩ => rfl | ⟨1, _⟩ => exact absurd rfl hb) (by show 128 * 1 + j.val = q.val; omega)).trans ?_
      simp only [val_main_v12_apply, val_main_v11_apply, val_main_v10_apply, i_v11]
      rfl
    · have hq' : q.val = 128 * 2 + j.val := hq
      refine (concatenate_apply_piece (1 : Fin 2) _ _ (ix2 r q) 2 (by show (2 : Nat) < 5; decide) S262144x128 (val_main_v22 (F := Ideal) a3 a4 a8) rfl rfl (128 * 2) rfl (ix2 r j)
        (fun b hb => by match b with | ⟨0, _⟩ => rfl | ⟨1, _⟩ => exact absurd rfl hb) (by show 128 * 2 + j.val = q.val; omega)).trans ?_
      simp only [val_main_v22_apply, val_main_v21_apply, val_main_v20_apply, i_v21]
      rfl
    · have hq' : q.val = 128 * 3 + j.val := hq
      refine (concatenate_apply_piece (1 : Fin 2) _ _ (ix2 r q) 3 (by show (3 : Nat) < 5; decide) S262144x128 (val_main_v47 (F := Ideal) a1 a4 a7 a9 a10 a11) rfl rfl (128 * 3) rfl (ix2 r j)
        (fun b hb => by match b with | ⟨0, _⟩ => rfl | ⟨1, _⟩ => exact absurd rfl hb) (by show 128 * 3 + j.val = q.val; omega)).trans ?_
      simp only [val_main_v47_apply, val_main_v46_apply, val_main_v43_apply, val_main_v41_apply, val_main_v39_apply, val_main_v38_apply, val_main_v37_apply, val_main_v42_apply, val_main_v40_apply, val_main_v45_apply, val_main_v44_apply, i_v41, i_v42, i_v45]
      rfl
    · have hq' : q.val = 128 * 4 + j.val := hq
      refine (concatenate_apply_piece (1 : Fin 2) _ _ (ix2 r q) 4 (by show (4 : Nat) < 5; decide) S262144x128 a5 rfl rfl (128 * 4) rfl (ix2 r j)
        (fun b hb => by match b with | ⟨0, _⟩ => rfl | ⟨1, _⟩ => exact absurd rfl hb) (by show 128 * 4 + j.val = q.val; omega)).trans ?_
      rfl
  unfold srcMsg
  rw [msgAt_piece _ _ _ q k j hq, val_main_v62_apply, hc, val_main_v61_apply, val_main_v60_apply, i_v61]
  rfl

/-- The reference's destination messages at `(r, q)`. -/
theorem ref_dst (a0 a1 : (⟨S262144, .i32⟩ : BufTy).Contents (Elt Ideal)) (a2 : (⟨S262144, .f32⟩ : BufTy).Contents (Elt Ideal)) (a3 : (⟨S262144, .i32⟩ : BufTy).Contents (Elt Ideal)) (a4 : (⟨S262144, .f32⟩ : BufTy).Contents (Elt Ideal)) (a5 : (⟨S262144x128, .f32⟩ : BufTy).Contents (Elt Ideal)) (a6 a7 : (⟨S262144, .f32⟩ : BufTy).Contents (Elt Ideal)) (a8 : (⟨S100000x128, .f32⟩ : BufTy).Contents (Elt Ideal)) (a9 : (⟨S100000, .f32⟩ : BufTy).Contents (Elt Ideal)) (a10 a11 : (⟨S128, .f32⟩ : BufTy).Contents (Elt Ideal)) (r : Fin 262144) (q : Fin 640) :
    val_main_v66 (F := Ideal) a0 a1 a2 a3 a4 a5 a7 a8 a9 a10 a11 (ix2 r q) = dstMsg (refRows a0 a1 a2 a3 a4 a5 a6 a7 a8 a9) (vecLane a10) (vecLane a11) r q := by
  obtain ⟨k, j, hq⟩ := exists_piece q
  have hc : val_main_v63 (F := Ideal) a0 a1 a2 a3 a4 a5 a7 a8 a9 a10 a11 (ix2 r q) = dstPieces (refRows a0 a1 a2 a3 a4 a5 a6 a7 a8 a9) (vecLane a10) (vecLane a11) k r j := by
    unfold val_main_v63
    fin_cases k
    · have hq' : q.val = 128 * 0 + j.val := hq
      refine (concatenate_apply_piece (1 : Fin 2) _ _ (ix2 r q) 0 (by show (0 : Nat) < 5; decide) S262144x128 (val_main_v2 (F := Ideal) a0) rfl rfl (128 * 0) rfl (ix2 r j)
        (fun b hb => by match b with | ⟨0, _⟩ => rfl | ⟨1, _⟩ => exact absurd rfl hb) (by show 128 * 0 + j.val = q.val; omega)).trans ?_
      simp only [val_main_v2_apply, val_main_v1_apply, i_v2]
      rfl
    · have hq' : q.val = 128 * 1 + j.val := hq
      refine (concatenate_apply_piece (1 : Fin 2) _ _ (ix2 r q) 1 (by show (1 : Nat) < 5; decide) S262144x128 (val_main_v22 (F := Ideal) a3 a4 a8) rfl rfl (128 * 1) rfl (ix2 r j)
        (fun b hb => by match b with | ⟨0, _⟩ => rfl | ⟨1, _⟩ => exact absurd rfl hb) (by show 128 * 1 + j.val = q.val; omega)).trans ?_
      simp only [val_main_v22_apply, val_main_v21_apply, val_main_v20_apply, i_v21]
      rfl
    · have hq' : q.val = 128 * 2 + j.val := hq
      refine (concatenate_apply_piece (1 : Fin 2) _ _ (ix2 r q) 2 (by show (2 : Nat) < 5; decide) S262144x128 (val_main_v12 (F := Ideal) a1 a2 a8) rfl rfl (128 * 2) rfl (ix2 r j)
        (fun b hb => by match b with | ⟨0, _⟩ => rfl | ⟨1, _⟩ => exact absurd rfl hb) (by show 128 * 2 + j.val = q.val; omega)).trans ?_
      simp only [val_main_v12_apply, val_main_v11_apply, val_main_v10_apply, i_v11]
      rfl
    · have hq' : q.val = 128 * 3 + j.val := hq
      refine (concatenate_apply_piece (1 : Fin 2) _ _ (ix2 r q) 3 (by show (3 : Nat) < 5; decide) S262144x128 (val_main_v58 (F := Ideal) a3 a4 a7 a9 a10 a11) rfl rfl (128 * 3) rfl (ix2 r j)
        (fun b hb => by match b with | ⟨0, _⟩ => rfl | ⟨1, _⟩ => exact absurd rfl hb) (by show 128 * 3 + j.val = q.val; omega)).trans ?_
      simp only [val_main_v58_apply, val_main_v57_apply, val_main_v54_apply, val_main_v52_apply, val_main_v50_apply, val_main_v49_apply, val_main_v48_apply, val_main_v53_apply, val_main_v51_apply, val_main_v56_apply, val_main_v55_apply, i_v52, i_v53, i_v56]
      rfl
    · have hq' : q.val = 128 * 4 + j.val := hq
      refine (concatenate_apply_piece (1 : Fin 2) _ _ (ix2 r q) 4 (by show (4 : Nat) < 5; decide) S262144x128 a5 rfl rfl (128 * 4) rfl (ix2 r j)
        (fun b hb => by match b with | ⟨0, _⟩ => rfl | ⟨1, _⟩ => exact absurd rfl hb) (by show 128 * 4 + j.val = q.val; omega)).trans ?_
      rfl
  unfold dstMsg
  rw [msgAt_piece _ _ _ q k j hq, val_main_v66_apply, hc, val_main_v65_apply, val_main_v64_apply, i_v65]
  rfl

end Cert.ReferenceIdeal.RefValue

end
-- ==== Proof.Bridge.lean ====
/-
  The two programs compute one array.

  The kernel's program prepares, on the host, the arrays its region stages: the event types converted to reals and
  the per-event vectors laid out as columns, the lane weights as one row, and the endpoints' memory rows and update
  times gathered by the normalised ids.  Read at an index, a column is the vector it was laid out from and a row is
  the vector of lanes; the gathers are the very gathers the reference makes.  So the data the kernel's region reads
  is the data the reference reads, and the two message arrays the region leaves (Proof/KernelArray.lean) are the
  reference's two message arrays (Proof/RefValue.lean), entry by entry.

  After the region both programs apply the same lines to those arrays and the ids: per endpoint, the messages summed
  into the node's row, divided by the larger of the node's event count and one, the two results stacked.  Fed equal
  arrays, those lines give equal results; they are never opened.
-/
import proofs.«148228_j88536455840071_1_alg».proof.Defs
import proofs.«148228_j88536455840071_1_alg».proof.Proof.Gen.Pre_finite_inputs
import proofs.«148228_j88536455840071_1_alg».proof.Proof.KernelArray
import proofs.«148228_j88536455840071_1_alg».proof.Proof.RefValue
import Idealize.ShloMosaic.Lib.StableHlo.Run
import Idealize.ShloMosaic.Lib.ValueLayout

noncomputable section

namespace Cert.Bridge

open Idealize.ShloMosaic Idealize.ShloMosaic.TcCoe Idealize.SL.Sem Idealize.ShloMosaic.ValueIdx Idealize.ShloMosaic.StableHlo Cert.Msg
open Cert.KernelIdeal Cert.KernelIdeal.Gen
open Idealize.ShloMosaic.Pipeline (Dat)

variable (m : (ℓ : Loc nD τ sig) → Buf (Elt Ideal) ℓ) (ρ : Dev nD → PrngReg)

/-! ## The twelve arguments as launched -/

abbrev g0 (c : Dev nD) : (⟨Cert.ReferenceIdeal.S262144, .i32⟩ : BufTy).Contents (Elt Ideal) := m ((c.tc : Thread nD τ).loc main_arg0)
abbrev g1 (c : Dev nD) : (⟨Cert.ReferenceIdeal.S262144, .i32⟩ : BufTy).Contents (Elt Ideal) := m ((c.tc : Thread nD τ).loc main_arg1)
abbrev g2 (c : Dev nD) : (⟨Cert.ReferenceIdeal.S262144, .f32⟩ : BufTy).Contents (Elt Ideal) := m ((c.tc : Thread nD τ).loc main_arg2)
abbrev g3 (c : Dev nD) : (⟨Cert.ReferenceIdeal.S262144, .i32⟩ : BufTy).Contents (Elt Ideal) := m ((c.tc : Thread nD τ).loc main_arg3)
abbrev g4 (c : Dev nD) : (⟨Cert.ReferenceIdeal.S262144, .f32⟩ : BufTy).Contents (Elt Ideal) := m ((c.tc : Thread nD τ).loc main_arg4)
abbrev g5 (c : Dev nD) : (⟨Cert.ReferenceIdeal.S262144x128, .f32⟩ : BufTy).Contents (Elt Ideal) := m ((c.tc : Thread nD τ).loc main_arg5)
abbrev g6 (c : Dev nD) : (⟨Cert.ReferenceIdeal.S262144, .f32⟩ : BufTy).Contents (Elt Ideal) := m ((c.tc : Thread nD τ).loc main_arg6)
abbrev g7 (c : Dev nD) : (⟨Cert.ReferenceIdeal.S262144, .f32⟩ : BufTy).Contents (Elt Ideal) := m ((c.tc : Thread nD τ).loc main_arg7)
abbrev g8 (c : Dev nD) : (⟨Cert.ReferenceIdeal.S100000x128, .f32⟩ : BufTy).Contents (Elt Ideal) := m ((c.tc : Thread nD τ).loc main_arg8)
abbrev g9 (c : Dev nD) : (⟨Cert.ReferenceIdeal.S100000, .f32⟩ : BufTy).Contents (Elt Ideal) := m ((c.tc : Thread nD τ).loc main_arg9)
abbrev g10 (c : Dev nD) : (⟨Cert.ReferenceIdeal.S128, .f32⟩ : BufTy).Contents (Elt Ideal) := m ((c.tc : Thread nD τ).loc main_arg10)
abbrev g11 (c : Dev nD) : (⟨Cert.ReferenceIdeal.S128, .f32⟩ : BufTy).Contents (Elt Ideal) := m ((c.tc : Thread nD τ).loc main_arg11)

/-! ## What the region's inputs are -/

set_option maxHeartbeats 8000000 in
/-- Input 0 of the region is the event's type as a real, laid out as a column. -/
theorem V0_eq (c : Dev nD) :
    (V m c main_v29 : FVec Ideal S262144x1 .f32) = shapeCast S262144x1 (Cert.ReferenceIdeal.Read.val_main_v0 (F := Ideal) (g0 m c)) shapeCasts_S262144_S262144x1 := by
  show StableHlo.after hostOps0 (fun b => m (c, b)) (Proc.devRef .tc main_v29) = _
  after_results_simp
  rfl

theorem et_eq (c : Dev nD) (r : Fin 262144) : Arr.arr0 m c (ix2 r (0 : Fin 1)) = (Cert.ReferenceIdeal.Read.val_main_v0 (F := Ideal) (g0 m c)) (ix1 r) := by
  unfold Arr.arr0
  rw [V0_eq m c]
  exact shapeCast_a_a1_apply _ _ r 0

set_option maxHeartbeats 8000000 in
/-- Input 3 of the region is the source mask, laid out as a column. -/
theorem V3_eq (c : Dev nD) :
    (V m c main_v30 : FVec Ideal S262144x1 .f32) = shapeCast S262144x1 (g2 m c) shapeCasts_S262144_S262144x1 := by
  show StableHlo.after hostOps0 (fun b => m (c, b)) (Proc.devRef .tc main_v30) = _
  after_results_simp
  rfl

theorem smask_eq (c : Dev nD) (r : Fin 262144) : Arr.arr3 m c (ix2 r (0 : Fin 1)) = (g2 m c) (ix1 r) := by
  unfold Arr.arr3
  rw [V3_eq m c]
  exact shapeCast_a_a1_apply _ _ r 0

set_option maxHeartbeats 8000000 in
/-- Input 4 of the region is the destination mask, laid out as a column. -/
theorem V4_eq (c : Dev nD) :
    (V m c main_v31 : FVec Ideal S262144x1 .f32) = shapeCast S262144x1 (g4 m c) shapeCasts_S262144_S262144x1 := by
  show StableHlo.after hostOps0 (fun b => m (c, b)) (Proc.devRef .tc main_v31) = _
  after_results_simp
  rfl

theorem dmask_eq (c : Dev nD) (r : Fin 262144) : Arr.arr4 m c (ix2 r (0 : Fin 1)) = (g4 m c) (ix1 r) := by
  unfold Arr.arr4
  rw [V4_eq m c]
  exact shapeCast_a_a1_apply _ _ r 0

set_option maxHeartbeats 8000000 in
/-- Input 5 of the region is the source's gathered update time, laid out as a column. -/
theorem V5_eq (c : Dev nD) :
    (V m c main_v32 : FVec Ideal S262144x1 .f32) = shapeCast S262144x1 (Cert.ReferenceIdeal.Read.val_main_v29 (F := Ideal) (g1 m c) (g9 m c)) shapeCasts_S262144_S262144x1 := by
  show StableHlo.after hostOps0 (fun b => m (c, b)) (Proc.devRef .tc main_v32) = _
  after_results_simp
  rfl

theorem slu_eq (c : Dev nD) (r : Fin 262144) : Arr.arr5 m c (ix2 r (0 : Fin 1)) = (Cert.ReferenceIdeal.Read.val_main_v29 (F := Ideal) (g1 m c) (g9 m c)) (ix1 r) := by
  unfold Arr.arr5
  rw [V5_eq m c]
  exact shapeCast_a_a1_apply _ _ r 0

set_option maxHeartbeats 8000000 in
/-- Input 6 of the region is the destination's gathered update time, laid out as a column. -/
theorem V6_eq (c : Dev nD) :
    (V m c main_v33 : FVec Ideal S262144x1 .f32) = shapeCast S262144x1 (Cert.ReferenceIdeal.Read.val_main_v36 (F := Ideal) (g3 m c) (g9 m c)) shapeCasts_S262144_S262144x1 := by
  show StableHlo.after hostOps0 (fun b => m (c, b)) (Proc.devRef .tc main_v33) = _
  after_results_simp
  rfl

theorem dlu_eq (c : Dev nD) (r : Fin 262144) : Arr.arr6 m c (ix2 r (0 : Fin 1)) = (Cert.ReferenceIdeal.Read.val_main_v36 (F := Ideal) (g3 m c) (g9 m c)) (ix1 r) := by
  unfold Arr.arr6
  rw [V6_eq m c]
  exact shapeCast_a_a1_apply _ _ r 0

set_option maxHeartbeats 8000000 in
/-- Input 8 of the region is the event mask, laid out as a column. -/
theorem V8_eq (c : Dev nD) :
    (V m c main_v34 : FVec Ideal S262144x1 .f32) = shapeCast S262144x1 (g6 m c) shapeCasts_S262144_S262144x1 := by
  show StableHlo.after hostOps0 (fun b => m (c, b)) (Proc.devRef .tc main_v34) = _
  after_results_simp
  rfl

theorem emask_eq (c : Dev nD) (r : Fin 262144) : Arr.arr8 m c (ix2 r (0 : Fin 1)) = (g6 m c) (ix1 r) := by
  unfold Arr.arr8
  rw [V8_eq m c]
  exact shapeCast_a_a1_apply _ _ r 0

set_option maxHeartbeats 8000000 in
/-- Input 9 of the region is the event's time, laid out as a column. -/
theorem V9_eq (c : Dev nD) :
    (V m c main_v35 : FVec Ideal S262144x1 .f32) = shapeCast S262144x1 (g7 m c) shapeCasts_S262144_S262144x1 := by
  show StableHlo.after hostOps0 (fun b => m (c, b)) (Proc.devRef .tc main_v35) = _
  after_results_simp
  rfl

theorem ets_eq (c : Dev nD) (r : Fin 262144) : Arr.arr9 m c (ix2 r (0 : Fin 1)) = (g7 m c) (ix1 r) := by
  unfold Arr.arr9
  rw [V9_eq m c]
  exact shapeCast_a_a1_apply _ _ r 0

set_option maxHeartbeats 8000000 in
/-- Input 1 of the region is the sources' gathered memory rows: the same gather of the same normalised ids as the reference's. -/
theorem V1_eq (c : Dev nD) : (V m c main_v6 : FVec Ideal S262144x128 .f32) = Cert.ReferenceIdeal.Read.val_main_v9 (F := Ideal) (g1 m c) (g8 m c) := by
  show StableHlo.after hostOps0 (fun b => m (c, b)) (Proc.devRef .tc main_v6) = _
  after_results_simp
  rfl

theorem smem_eq (c : Dev nD) (r : Fin 262144) (j : Fin 128) : Arr.arr1 m c (ix2 r j) = (Cert.ReferenceIdeal.Read.val_main_v9 (F := Ideal) (g1 m c) (g8 m c)) (ix2 r j) := by
  unfold Arr.arr1
  rw [V1_eq m c]

set_option maxHeartbeats 8000000 in
/-- Input 2 of the region is the destinations' gathered memory rows: the same gather of the same normalised ids as the reference's. -/
theorem V2_eq (c : Dev nD) : (V m c main_v13 : FVec Ideal S262144x128 .f32) = Cert.ReferenceIdeal.Read.val_main_v19 (F := Ideal) (g3 m c) (g8 m c) := by
  show StableHlo.after hostOps0 (fun b => m (c, b)) (Proc.devRef .tc main_v13) = _
  after_results_simp
  rfl

theorem dmem_eq (c : Dev nD) (r : Fin 262144) (j : Fin 128) : Arr.arr2 m c (ix2 r j) = (Cert.ReferenceIdeal.Read.val_main_v19 (F := Ideal) (g3 m c) (g8 m c)) (ix2 r j) := by
  unfold Arr.arr2
  rw [V2_eq m c]

theorem emb_eq (c : Dev nD) (r : Fin 262144) (j : Fin 128) : Arr.arr7 m c (ix2 r j) = g5 m c (ix2 r j) := by
  unfold Arr.arr7
  rw [V_main_arg5 m c]

set_option maxHeartbeats 8000000 in
/-- Input 10 of the region is the vector of lane weights, laid out as one row. -/
theorem V10_eq (c : Dev nD) :
    (V m c main_v36 : FVec Ideal S1x128 .f32) = shapeCast S1x128 (g10 m c) shapeCasts_S128_S1x128 := by
  show StableHlo.after hostOps0 (fun b => m (c, b)) (Proc.devRef .tc main_v36) = _
  after_results_simp
  rfl

theorem lane_w_eq (c : Dev nD) : Block.lane (Arr.arr10 m c) = vecLane (g10 m c) := by
  funext j
  unfold Block.lane vecLane Arr.arr10
  rw [V10_eq m c]
  exact shapeCast_a_1a_apply _ _ 0 j

set_option maxHeartbeats 8000000 in
/-- Input 11 of the region is the vector of lane offsets, laid out as one row. -/
theorem V11_eq (c : Dev nD) :
    (V m c main_v37 : FVec Ideal S1x128 .f32) = shapeCast S1x128 (g11 m c) shapeCasts_S128_S1x128 := by
  show StableHlo.after hostOps0 (fun b => m (c, b)) (Proc.devRef .tc main_v37) = _
  after_results_simp
  rfl

theorem lane_b_eq (c : Dev nD) : Block.lane (Arr.arr11 m c) = vecLane (g11 m c) := by
  funext j
  unfold Block.lane vecLane Arr.arr11
  rw [V11_eq m c]
  exact shapeCast_a_1a_apply _ _ 0 j

/-! ## The region reads the reference's data -/

set_option maxHeartbeats 1000000 in
theorem arrRows_eq (c : Dev nD) :
    Arr.arrRows m c = Cert.ReferenceIdeal.RefValue.refRows (g0 m c) (g1 m c) (g2 m c) (g3 m c) (g4 m c) (g5 m c) (g6 m c) (g7 m c) (g8 m c) (g9 m c) := by
  apply Rows.ext
  · funext r; exact et_eq m c r
  · funext r; exact smask_eq m c r
  · funext r; exact dmask_eq m c r
  · funext r; exact slu_eq m c r
  · funext r; exact dlu_eq m c r
  · funext r; exact emask_eq m c r
  · funext r; exact ets_eq m c r
  · funext r j; exact smem_eq m c r j
  · funext r j; exact dmem_eq m c r j
  · funext r j; exact emb_eq m c r j

/-- The kernel's source message array is the reference's. -/
theorem srcArr_eq (c : Dev nD) : Arr.srcArr m c = Cert.ReferenceIdeal.Read.val_main_v62 (F := Ideal) (g0 m c) (g1 m c) (g2 m c) (g3 m c) (g4 m c) (g5 m c) (g6 m c) (g7 m c) (g8 m c) (g9 m c) (g10 m c) (g11 m c) := by
  funext y
  obtain ⟨r, q, rfl⟩ : ∃ (r : Fin 262144) (q : Fin 640), y = ix2 r q := ⟨y 0, y 1, eq_ix2 y⟩
  rw [Cert.ReferenceIdeal.RefValue.ref_src]
  show srcMsg (Arr.arrRows m c) (Block.lane (Arr.arr10 m c)) (Block.lane (Arr.arr11 m c)) r q = _
  rw [arrRows_eq m c, lane_w_eq m c, lane_b_eq m c]

/-- The kernel's destination message array is the reference's. -/
theorem dstArr_eq (c : Dev nD) : Arr.dstArr m c = Cert.ReferenceIdeal.Read.val_main_v66 (F := Ideal) (g0 m c) (g1 m c) (g2 m c) (g3 m c) (g4 m c) (g5 m c) (g7 m c) (g8 m c) (g9 m c) (g10 m c) (g11 m c) := by
  funext y
  obtain ⟨r, q, rfl⟩ : ∃ (r : Fin 262144) (q : Fin 640), y = ix2 r q := ⟨y 0, y 1, eq_ix2 y⟩
  rw [Cert.ReferenceIdeal.RefValue.ref_dst (a6 := g6 m c)]
  show dstMsg (Arr.arrRows m c) (Block.lane (Arr.arr10 m c)) (Block.lane (Arr.arr11 m c)) r q = _
  rw [arrRows_eq m c, lane_w_eq m c, lane_b_eq m c]

/-! ## What the lines after the region find -/

theorem look_src (c : Dev nD) :
    Pipeline.withArrays (cfgs 0).spec c (V0 m c) (fun w => (dats m 0 c).arrAt w (cfgs 0).N) (Proc.devRef .tc main_v38_0)
      = Cert.ReferenceIdeal.Read.val_main_v62 (F := Ideal) (g0 m c) (g1 m c) (g2 m c) (g3 m c) (g4 m c) (g5 m c) (g6 m c) (g7 m c) (g8 m c) (g9 m c) (g10 m c) (g11 m c) :=
  ((Pipeline.withArrays_arr spec0 launch0.win.arr_inj c _ _ 12).trans (Arr.final12 m c)).trans (srcArr_eq m c)

theorem look_dst (c : Dev nD) :
    Pipeline.withArrays (cfgs 0).spec c (V0 m c) (fun w => (dats m 0 c).arrAt w (cfgs 0).N) (Proc.devRef .tc main_v38_1)
      = Cert.ReferenceIdeal.Read.val_main_v66 (F := Ideal) (g0 m c) (g1 m c) (g2 m c) (g3 m c) (g4 m c) (g5 m c) (g7 m c) (g8 m c) (g9 m c) (g10 m c) (g11 m c) :=
  ((Pipeline.withArrays_arr spec0 launch0.win.arr_inj c _ _ 13).trans (Arr.final13 m c)).trans (dstArr_eq m c)

theorem look_ids1 (c : Dev nD) :
    Pipeline.withArrays (cfgs 0).spec c (V0 m c) (fun w => (dats m 0 c).arrAt w (cfgs 0).N) (Proc.devRef .tc main_arg1) = g1 m c :=
  (Pipeline.withArrays_of_ne _ c (V0 m c) _ main_arg1 (by exact (by decide : ∀ w, Pipeline.arrRef spec0 w ≠ main_arg1))).trans (V_main_arg1 m c)

theorem look_ids3 (c : Dev nD) :
    Pipeline.withArrays (cfgs 0).spec c (V0 m c) (fun w => (dats m 0 c).arrAt w (cfgs 0).N) (Proc.devRef .tc main_arg3) = g3 m c :=
  (Pipeline.withArrays_of_ne _ c (V0 m c) _ main_arg3 (by exact (by decide : ∀ w, Pipeline.arrRef spec0 w ≠ main_arg3))).trans (V_main_arg3 m c)

set_option maxHeartbeats 32000000 in
/-- The kernel's result: the lines after the region, applied to the reference's two message arrays and the ids, are
    the reference's own last lines applied to them. -/
theorem result_eq (c : Dev nD) :
    Pipeline.afterTail₀ cfgs (dats m) 0 (V0 m) [hostOps1] c main_v65 = Cert.ReferenceIdeal.Read.val_main_v93 (F := Ideal) (g0 m c) (g1 m c) (g2 m c) (g3 m c) (g4 m c) (g5 m c) (g6 m c) (g7 m c) (g8 m c) (g9 m c) (g10 m c) (g11 m c) := by
  unfold Pipeline.afterTail₀
  show StableHlo.after hostOps1 _ (Proc.devRef .tc main_v65) = _
  after_results
  rw [look_src m c, look_dst m c, look_ids1 m c, look_ids3 m c]
  rfl

/-! ## The kernel's run -/

/-- Every weakly fair execution of the kernel's program ends with the result at the reference's term of the launch
    contents, the arguments unchanged. -/
theorem kernel_run : θ_run defs (onTc (τ := τ) (main (F := Ideal))) ⟨m, fun _ => 0, ρ⟩ (fun r => ∀ c : Dev nD,
      r.2.mem ((c.tc : Thread nD τ).loc main_v65) = Cert.ReferenceIdeal.Read.val_main_v93 (F := Ideal) (g0 m c) (g1 m c) (g2 m c) (g3 m c) (g4 m c) (g5 m c) (g6 m c) (g7 m c) (g8 m c) (g9 m c) (g10 m c) (g11 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨((h c).2 main_v65 (Pipeline.mem_restRefs_of main_v65 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 7).trans (((dats m 0 c).arrAt_in 7 rfl _).trans ((A_eq m c 7).trans (V_main_arg5 m c))),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c))⟩) (run_main m ρ)

end Cert.Bridge

/-! ## The claim about the two idealized programs -/

namespace Cert.Bridge

open Idealize.ShloMosaic Idealize.ShloMosaic.TcCoe Idealize.SL.Sem

/-- From memories that agree on the arguments both idealized programs run, and end with equal results: the
    reference's term of the launch contents. -/
theorem algebraic : Cert.algebraic_KernelIdeal_ReferenceIdeal := by
  intro m ρ m' ρ' _ hagree
  refine ⟨fun c => Cert.ReferenceIdeal.Read.val_main_v93 (F := Ideal) (g0 m c) (g1 m c) (g2 m c) (g3 m c) (g4 m c) (g5 m c) (g6 m c) (g7 m c) (g8 m c) (g9 m c) (g10 m c) (g11 m c), kernel_run m ρ, ?_⟩
  refine (θ_run Cert.ReferenceIdeal.defs _ _).mono (fun _ h c => ⟨(h c).1.trans ?_, (h c).2⟩) (Cert.ReferenceIdeal.Value.run (F := Ideal) m' ρ')
  rw [Cert.ReferenceIdeal.Read.val_main_v93_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]

end Cert.Bridge

end
-- ==== Proof.lean ====
/-
  The temporal-graph message layer: a Pallas kernel for the message construction against the plain reference.

  Both programs gather the endpoints' memory rows and last update times by the event's ids, form for every event a
  source row and a destination row of 640 numbers — five 128-wide pieces (the event's type, the two endpoints'
  masked memory rows, a cosine time code, the event's embedding) scaled by one mask of the event — and then average
  the rows of the events that share an endpoint.  The kernel forms the two row arrays 2048 events at a time, scaling
  each piece before it lays it down; the reference lays the pieces side by side and scales the joined row.  Entry
  by entry the two arrays are the same numbers (Proof/Spec.lean states them, Proof/KernelBlock.lean and
  Proof/KernelArray.lean read the kernel's, Proof/RefValue.lean the reference's), and the averaging that follows is
  the same lines in both programs (Proof/Bridge.lean).  No law of arithmetic is used beyond reading both sides at an
  index, so the inputs' finiteness is never opened.
-/
import proofs.«148228_j88536455840071_1_alg».proof.Defs
import proofs.«148228_j88536455840071_1_alg».proof.Proof.Gen.Kernel
import proofs.«148228_j88536455840071_1_alg».proof.Proof.Gen.Kernel.Skeleton
import proofs.«148228_j88536455840071_1_alg».proof.Proof.Gen.Kernel.Launch
import proofs.«148228_j88536455840071_1_alg».proof.Proof.Gen.Kernel.Points
import proofs.«148228_j88536455840071_1_alg».proof.Proof.Gen.Kernel.Frame
import proofs.«148228_j88536455840071_1_alg».proof.Proof.Gen.KernelIdeal
import proofs.«148228_j88536455840071_1_alg».proof.Proof.Gen.KernelIdeal.Skeleton
import proofs.«148228_j88536455840071_1_alg».proof.Proof.Gen.KernelIdeal.Launch
import proofs.«148228_j88536455840071_1_alg».proof.Proof.Gen.KernelIdeal.Points
import proofs.«148228_j88536455840071_1_alg».proof.Proof.Gen.KernelIdeal.Frame
import proofs.«148228_j88536455840071_1_alg».proof.Proof.Gen.ReferenceIdeal
import proofs.«148228_j88536455840071_1_alg».proof.Proof.Gen.Pre_finite_inputs
import proofs.«148228_j88536455840071_1_alg».proof.Proof.Gen.ReferenceIdeal.Run
import proofs.«148228_j88536455840071_1_alg».proof.Proof.Gen.ReferenceIdeal.Read
import proofs.«148228_j88536455840071_1_alg».proof.Proof.Bridge
import Idealize.ShloMosaic.Adequacy
import Idealize.ShloMosaic.Init

noncomputable section

namespace Cert.Proof

open Idealize.ShloMosaic Idealize.SL.Sem

/-- The word-level kernel and the idealized kernel run and keep their arguments: their one region loads and stores
    whole blocks through literal rectangles. -/
theorem frame_kernel : Cert.frame_Kernel := fun m ρ _ => Cert.Kernel.Gen.frame m ρ
theorem frame_kernelIdeal : Cert.frame_KernelIdeal := fun m ρ _ => Cert.KernelIdeal.Gen.frame m ρ

/-- The reference is host operations only: it runs, and its run leaves the arguments as they were. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read over the extended reals: nothing was rewritten. -/
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, Cert.Bridge.algebraic⟩

end Cert.Proof

end
